-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S8x128x128 : Shape := ⟨3, ![8, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S2x600000 : S_.BroadcastsInDim S2x600000 (![] : Fin 0 → Fin S2x600000.rank)
  reducesTo_S2x600000_S_d0_1 : S2x600000.ReducesTo [0, 1] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_arg2 : IVec S600000 32) (main_v32 : IVec S_ 1) (main_c_12 : IVec S_ 32) : IVec S_ 1 :=
  let main_v33 : IVec S2x600000 32 := broadcastInDim S2x600000 ![] bcast_S_S2x600000 main_c_12
  let main_v34 : IVec S2x600000 1 := cmpi .slt main_arg1 main_v33
  let main_c_13 : IVec S_ 1 := constantI S_ 1 1#1
  let main_v35 : IVec S_ 1 := (fun x v => Host.reduce IntOp.andi x v reducesTo_S2x600000_S_d0_1 h_S_) main_v34 main_c_13
  let main_v36 : IVec S_ 1 := andi main_v32 main_v35
  let main_c_14 : IVec S_ 32 := constantI S_ 32 0#32
  let main_v37 : IVec S600000 32 := broadcastInDim S600000 ![] bcast_S_S600000 main_c_14
  let main_v38 : IVec S600000 1 := cmpi .sge main_arg2 main_v37
  let main_c_15 : IVec S_ 1 := constantI S_ 1 1#1
  let main_v39 : IVec S_ 1 := (fun x v => Host.reduce IntOp.andi x v reducesTo_S600000_S_d0 h_S_) main_v38 main_c_15
  let main_v40 : IVec S_ 1 := andi main_v36 main_v39
  let main_c_16 : IVec S_ 32 := constantI S_ 32 8#32
  let main_v41 : IVec S600000 32 := broadcastInDim S600000 ![] bcast_S_S600000 main_c_16
  let main_v42 : IVec S600000 1 := cmpi .slt main_arg2 main_v41
  let main_c_17 : IVec S_ 1 := constantI S_ 1 1#1
  let main_v43 : IVec S_ 1 := (fun x v => Host.reduce IntOp.andi x v reducesTo_S600000_S_d0 h_S_) main_v42 main_c_17
  let main_v44 : IVec S_ 1 := andi main_v40 main_v43
  main_v44

def fn_part1 {F : FTy → Type} [FloatOps F] (main_arg1 : IVec S2x600000 32) (main_arg2 : IVec S600000 32) (main_arg6 : FVec F S128 .f32) (main_arg7 : FVec F S128 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x600000 32 := broadcastInDim S2x600000 ![] bcast_S_S2x600000 main_c_10
  let main_v30 : IVec S2x600000 1 := cmpi .sge main_arg1 main_v29
  let main_c_11 : IVec S_ 1 := constantI S_ 1 1#1
  let main_v31 : IVec S_ 1 := (fun x v => Host.reduce IntOp.andi x v reducesTo_S2x600000_S_d0_1 h_S_) main_v30 main_c_11
  let main_v32 : IVec S_ 1 := andi main_v28 main_v31
  let main_c_12 : IVec S_ 32 := constantI S_ 32 100000#32
  fn_part2 (F := F) main_arg1 main_arg2 main_v32 main_c_12

def fn {F : FTy → Type} [FloatOps F] (main_arg0 : FVec F S100000x128 .f32) (main_arg1 : IVec S2x600000 32) (main_arg2 : IVec S600000 32) (main_arg3 : FVec F S128x128 .f32) (main_arg4 : FVec F S128 .f32) (main_arg5 : FVec F S8x128x128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x128x128 .f32 := Host.absf main_arg5
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg1 main_arg2 main_arg6 main_arg7 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S8x128x128 : Shape := ⟨3, ![8, 128, 128]⟩
abbrev S1x600000 : Shape := ⟨2, ![1, 600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S800000x128 : Shape := ⟨2, ![800000, 128]⟩
abbrev S800000 : Shape := ⟨1, ![800000]⟩
abbrev S100000x8x128 : Shape := ⟨3, ![100000, 8, 128]⟩
abbrev S100000x8 : Shape := ⟨2, ![100000, 8]⟩
abbrev S2000x128 : Shape := ⟨2, ![2000, 128]⟩
abbrev S2000x8x128 : Shape := ⟨3, ![2000, 8, 128]⟩
abbrev S2000x8 : Shape := ⟨2, ![2000, 8]⟩
abbrev S1x128 : Shape := ⟨2, ![1, 128]⟩
abbrev S2000x1x128 : Shape := ⟨3, ![2000, 1, 128]⟩
abbrev S2000x1 : Shape := ⟨2, ![2000, 1]⟩
abbrev S2000 : Shape := ⟨1, ![2000]⟩
abbrev S1x128x128 : Shape := ⟨3, ![1, 128, 128]⟩

abbrev nBuf : Space → Nat
  | .hbm => 60
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S8x128x128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S1, .i32⟩
  | .hbm, ⟨25, _⟩ => ⟨S_, .i32⟩
  | .hbm, ⟨26, _⟩ => ⟨S600000x1, .i32⟩
  | .hbm, ⟨27, _⟩ => ⟨S600000x1, .i1⟩
  | .hbm, ⟨28, _⟩ => ⟨S1x1, .i32⟩
  | .hbm, ⟨29, _⟩ => ⟨S600000x1, .i32⟩
  | .hbm, ⟨30, _⟩ => ⟨S600000x1, .i1⟩
  | .hbm, ⟨31, _⟩ => ⟨S600000x1, .i1⟩
  | .hbm, ⟨32, _⟩ => ⟨S_, .i1⟩
  | .hbm, ⟨33, _⟩ => ⟨S600000, .i1⟩
  | .hbm, ⟨34, _⟩ => ⟨S600000x128, .f32⟩
  | .hbm, ⟨35, _⟩ => ⟨S600000x128, .i1⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S800000x128, .f32⟩
  | .hbm, ⟨41, _⟩ => ⟨S600000x1, .i32⟩
  | .hbm, ⟨42, _⟩ => ⟨S800000x128, .f32⟩
  | .hbm, ⟨43, _⟩ => ⟨S_, .f32⟩
  | .hbm, ⟨44, _⟩ => ⟨S600000, .f32⟩
  | .hbm, ⟨45, _⟩ => ⟨S_, .f32⟩
  | .hbm, ⟨46, _⟩ => ⟨S800000, .f32⟩
  | .hbm, ⟨47, _⟩ => ⟨S600000x1, .i32⟩
  | .hbm, ⟨48, _⟩ => ⟨S800000, .f32⟩
  | .hbm, ⟨49, _⟩ => ⟨S100000x8x128, .f32⟩
  | .hbm, ⟨50, _⟩ => ⟨S_, .f32⟩
  | .hbm, ⟨51, _⟩ => ⟨S800000, .f32⟩
  | .hbm, ⟨52, _⟩ => ⟨S800000, .f32⟩
  | .hbm, ⟨53, _⟩ => ⟨S_, .f32⟩
  | .hbm, ⟨54, _⟩ => ⟨S800000, .f32⟩
  | .hbm, ⟨55, _⟩ => ⟨S800000, .f32⟩
  | .hbm, ⟨56, _⟩ => ⟨S100000x8, .f32⟩
  | .hbm, ⟨57, _⟩ => ⟨S128x128, .f32⟩
  | .hbm, ⟨58, _⟩ => ⟨S8x128x128, .f32⟩
  | .hbm, ⟨59, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x8x128, .f32⟩
  | .local _ .vmem, ⟨3, _⟩ => ⟨S2000x8x128, .f32⟩
  | .local _ .vmem, ⟨4, _⟩ => ⟨S2000x8, .f32⟩
  | .local _ .vmem, ⟨5, _⟩ => ⟨S2000x8, .f32⟩
  | .local _ .vmem, ⟨6, _⟩ => ⟨S128x128, .f32⟩
  | .local _ .vmem, ⟨7, _⟩ => ⟨S128, .f32⟩
  | .local _ .vmem, ⟨8, _⟩ => ⟨S8x128x128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S800000x128 : S_.BroadcastsInDim S800000x128 (![] : Fin 0 → Fin S800000x128.rank)
  bcast_S_S800000 : S_.BroadcastsInDim S800000 (![] : Fin 0 → Fin S800000.rank)
  shapeCasts_S800000x128_S100000x8x128 : S800000x128.ShapeCasts S100000x8x128
  shapeCasts_S800000_S100000x8 : S800000.ShapeCasts S100000x8
  transposes_S128x128_S128x128_1_0 : S128x128.Transposes [1, 0] S128x128
  transposes_S8x128x128_S8x128x128_0_2_1 : S8x128x128.Transposes [0, 2, 1] S8x128x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S2000x8x128_S2000x1x128_0_0_0 : ∀ a, (![0, 0, 0] : Fin 3 → Nat) a + S2000x1x128.size a ≤ S2000x8x128.size a
  h_S2000x1x128 : 0 < S2000x1x128.numel
  shapeCasts_S2000x1x128_S2000x128 : S2000x1x128.ShapeCasts S2000x128
  slices_S2000x8_o0_0_S2000x1 : S2000x8.Slices ![0, 0] S2000x1
  shapeCasts_S2000x1_S2000 : S2000x1.ShapeCasts S2000
  shapeCasts_S2000_S2000x1 : S2000.ShapeCasts S2000x1
  broadcasts_S2000x1_S2000x128 : S2000x1.Broadcasts S2000x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S2000x8x128_S2000x1x128_0_1_0 : ∀ a, (![0, 1, 0] : Fin 3 → Nat) a + S2000x1x128.size a ≤ S2000x8x128.size a
  slices_S2000x8_o0_1_S2000x1 : S2000x8.Slices ![0, 1] S2000x1
  inb_S8x128x128_S1x128x128_1_0_0 : ∀ a, (![1, 0, 0] : Fin 3 → Nat) a + S1x128x128.size a ≤ S8x128x128.size a
  inb_S2000x8x128_S2000x1x128_0_2_0 : ∀ a, (![0, 2, 0] : Fin 3 → Nat) a + S2000x1x128.size a ≤ S2000x8x128.size a
  slices_S2000x8_o0_2_S2000x1 : S2000x8.Slices ![0, 2] S2000x1
  inb_S8x128x128_S1x128x128_2_0_0 : ∀ a, (![2, 0, 0] : Fin 3 → Nat) a + S1x128x128.size a ≤ S8x128x128.size a
  inb_S2000x8x128_S2000x1x128_0_3_0 : ∀ a, (![0, 3, 0] : Fin 3 → Nat) a + S2000x1x128.size a ≤ S2000x8x128.size a
  slices_S2000x8_o0_3_S2000x1 : S2000x8.Slices ![0, 3] S2000x1
  inb_S8x128x128_S1x128x128_3_0_0 : ∀ a, (![3, 0, 0] : Fin 3 → Nat) a + S1x128x128.size a ≤ S8x128x128.size a
  inb_S2000x8x128_S2000x1x128_0_4_0 : ∀ a, (![0, 4, 0] : Fin 3 → Nat) a + S2000x1x128.size a ≤ S2000x8x128.size a
  slices_S2000x8_o0_4_S2000x1 : S2000x8.Slices ![0, 4] S2000x1
  inb_S8x128x128_S1x128x128_4_0_0 : ∀ a, (![4, 0, 0] : Fin 3 → Nat) a + S1x128x128.size a ≤ S8x128x128.size a
  inb_S2000x8x128_S2000x1x128_0_5_0 : ∀ a, (![0, 5, 0] : Fin 3 → Nat) a + S2000x1x128.size a ≤ S2000x8x128.size a
  slices_S2000x8_o0_5_S2000x1 : S2000x8.Slices ![0, 5] S2000x1
  inb_S8x128x128_S1x128x128_5_0_0 : ∀ a, (![5, 0, 0] : Fin 3 → Nat) a + S1x128x128.size a ≤ S8x128x128.size a
  inb_S2000x8x128_S2000x1x128_0_6_0 : ∀ a, (![0, 6, 0] : Fin 3 → Nat) a + S2000x1x128.size a ≤ S2000x8x128.size a
  slices_S2000x8_o0_6_S2000x1 : S2000x8.Slices ![0, 6] S2000x1
  inb_S8x128x128_S1x128x128_6_0_0 : ∀ a, (![6, 0, 0] : Fin 3 → Nat) a + S1x128x128.size a ≤ S8x128x128.size a
  inb_S2000x8x128_S2000x1x128_0_7_0 : ∀ a, (![0, 7, 0] : Fin 3 → Nat) a + S2000x1x128.size a ≤ S2000x8x128.size a
  slices_S2000x8_o0_7_S2000x1 : S2000x8.Slices ![0, 7] S2000x1
  inb_S8x128x128_S1x128x128_7_0_0 : ∀ a, (![7, 0, 0] : Fin 3 → Nat) a + S1x128x128.size a ≤ S8x128x128.size a
  reduces_S2000x128_S2000 : S2000x128.Reduces [1] S2000
  gather_S100000x128_S600000x1_S600000x128_1_0_n_n_0_1_1128_wf : GatherDims.WF S100000x128 S600000x1 S600000x128 [1] [0] [] [0] [] 1 ![1, 128]
  scatter_S800000x128_S600000x1_S600000x128_1_0_0_1_wf : ScatterDims.WF S800000x128 S600000x1 S600000x128 [1] [0] [0] 1
  scatter_S800000_S600000x1_S600000_n_0_0_1_wf : ScatterDims.WF S800000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8x128.size a ≤ S100000x8x128.size a
  hwx0_1 : ∀ i : grid0.Coords, EltTy.bits .f32 = 32 ∨ (Rect.block (s := S100000x8x128) S2000x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S100000x8.size a
  hwx0_2 : ∀ i : grid0.Coords, EltTy.bits .f32 = 32 ∨ (Rect.block (s := S100000x8) S2000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128x128.size a ≤ S8x128x128.size a
  hwx0_5 : ∀ i : grid0.Coords, EltTy.bits .f32 = 32 ∨ (Rect.block (s := S8x128x128) S8x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S800000x128_S600000x1_S600000x128_1_0_0_1 : ScatterDims S800000x128 S600000x1 S600000x128 where
  updateWindowDims := [1]
  insertedWindowDims := [0]
  scatterDimsToOperandDims := [0]
  indexVectorDim := 1
  wf := scatter_S800000x128_S600000x1_S600000x128_1_0_0_1_wf
def scatter_S800000_S600000x1_S600000_n_0_0_1 : ScatterDims S800000 S600000x1 S600000 where
  updateWindowDims := []
  insertedWindowDims := [0]
  scatterDimsToOperandDims := [0]
  indexVectorDim := 1
  wf := scatter_S800000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S8x128x128 : Shape := ⟨3, ![8, 128, 128]⟩
abbrev S1x128 : Shape := ⟨2, ![1, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S100000 : Shape := ⟨1, ![100000]⟩
abbrev S100000x1 : Shape := ⟨2, ![100000, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S2x600000, .i32⟩
  | 2 => ⟨S600000, .i32⟩
  | 3 => ⟨S128x128, .f32⟩
  | 4 => ⟨S128, .f32⟩
  | 5 => ⟨S8x128x128, .f32⟩
  | 6 => ⟨S128, .f32⟩
  | 7 => ⟨S128, .f32⟩
  | 8 => ⟨S128x128, .f32⟩
  | 9 => ⟨S100000x128, .f32⟩
  | 10 => ⟨S1x128, .f32⟩
  | 11 => ⟨S100000x128, .f32⟩
  | 12 => ⟨S100000x128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .i32⟩
  | 27 => ⟨S600000, .i32⟩
  | 28 => ⟨S600000, .i1⟩
  | 29 => ⟨S600000, .f32⟩
  | 30 => ⟨S600000x1, .f32⟩
  | 31 => ⟨S600000x128, .f32⟩
  | 32 => ⟨S600000x128, .f32⟩
  | 33 => ⟨S1x128x128, .f32⟩
  | 34 => ⟨S128x128, .f32⟩
  | 35 => ⟨S128x128, .f32⟩
  | 36 => ⟨S600000x128, .f32⟩
  | 37 => ⟨S_, .f32⟩
  | 38 => ⟨S100000x128, .f32⟩
  | 39 => ⟨S600000x1, .i32⟩
  | 40 => ⟨S100000x128, .f32⟩
  | 41 => ⟨S_, .f32⟩
  | 42 => ⟨S100000, .f32⟩
  | 43 => ⟨S600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S_, .i32⟩
  | 53 => ⟨S600000, .i32⟩
  | 54 => ⟨S600000, .i1⟩
  | 55 => ⟨S600000, .f32⟩
  | 56 => ⟨S600000x1, .f32⟩
  | 57 => ⟨S600000x128, .f32⟩
  | 58 => ⟨S600000x128, .f32⟩
  | 59 => ⟨S1x128x128, .f32⟩
  | 60 => ⟨S128x128, .f32⟩
  | 61 => ⟨S128x128, .f32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S100000, .f32⟩
  | 69 => ⟨S600000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S_, .i32⟩
  | 79 => ⟨S600000, .i32⟩
  | 80 => ⟨S600000, .i1⟩
  | 81 => ⟨S600000, .f32⟩
  | 82 => ⟨S600000x1, .f32⟩
  | 83 => ⟨S600000x128, .f32⟩
  | 84 => ⟨S600000x128, .f32⟩
  | 85 => ⟨S1x128x128, .f32⟩
  | 86 => ⟨S128x128, .f32⟩
  | 87 => ⟨S128x128, .f32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S_, .f32⟩
  | 94 => ⟨S100000, .f32⟩
  | 95 => ⟨S600000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S_, .i32⟩
  | 105 => ⟨S600000, .i32⟩
  | 106 => ⟨S600000, .i1⟩
  | 107 => ⟨S600000, .f32⟩
  | 108 => ⟨S600000x1, .f32⟩
  | 109 => ⟨S600000x128, .f32⟩
  | 110 => ⟨S600000x128, .f32⟩
  | 111 => ⟨S1x128x128, .f32⟩
  | 112 => ⟨S128x128, .f32⟩
  | 113 => ⟨S128x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S_, .f32⟩
  | 120 => ⟨S100000, .f32⟩
  | 121 => ⟨S600000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S600000, .i32⟩
  | 4 => ⟨S600000, .i1⟩
  | 5 => ⟨S600000, .f32⟩
  | 6 => ⟨S600000x1, .f32⟩
  | 7 => ⟨S600000x128, .f32⟩
  | 8 => ⟨S600000x128, .f32⟩
  | 9 => ⟨S1x128x128, .f32⟩
  | 10 => ⟨S128x128, .f32⟩
  | 11 => ⟨S128x128, .f32⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S_, .f32⟩
  | 18 => ⟨S100000, .f32⟩
  | 19 => ⟨S600000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S100000x128, .f32⟩
  | 28 => ⟨S_, .i32⟩
  | 29 => ⟨S600000, .i32⟩
  | 30 => ⟨S600000, .i1⟩
  | 31 => ⟨S600000, .f32⟩
  | 32 => ⟨S600000x1, .f32⟩
  | 33 => ⟨S600000x128, .f32⟩
  | 34 => ⟨S600000x128, .f32⟩
  | 35 => ⟨S1x128x128, .f32⟩
  | 36 => ⟨S128x128, .f32⟩
  | 37 => ⟨S128x128, .f32⟩
  | 38 => ⟨S600000x128, .f32⟩
  | 39 => ⟨S_, .f32⟩
  | 40 => ⟨S100000x128, .f32⟩
  | 41 => ⟨S600000x1, .i32⟩
  | 42 => ⟨S100000x128, .f32⟩
  | 43 => ⟨S_, .f32⟩
  | 44 => ⟨S100000, .f32⟩
  | 45 => ⟨S600000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S_, .i32⟩
  | 55 => ⟨S600000, .i32⟩
  | 56 => ⟨S600000, .i1⟩
  | 57 => ⟨S600000, .f32⟩
  | 58 => ⟨S600000x1, .f32⟩
  | 59 => ⟨S600000x128, .f32⟩
  | 60 => ⟨S600000x128, .f32⟩
  | 61 => ⟨S1x128x128, .f32⟩
  | 62 => ⟨S128x128, .f32⟩
  | 63 => ⟨S128x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S_, .f32⟩
  | 70 => ⟨S100000, .f32⟩
  | 71 => ⟨S600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S_, .i32⟩
  | 81 => ⟨S600000, .i32⟩
  | 82 => ⟨S600000, .i1⟩
  | 83 => ⟨S600000, .f32⟩
  | 84 => ⟨S600000x1, .f32⟩
  | 85 => ⟨S600000x128, .f32⟩
  | 86 => ⟨S600000x128, .f32⟩
  | 87 => ⟨S1x128x128, .f32⟩
  | 88 => ⟨S128x128, .f32⟩
  | 89 => ⟨S128x128, .f32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S_, .f32⟩
  | 96 => ⟨S100000, .f32⟩
  | 97 => ⟨S600000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S_, .f32⟩
  | 127 => ⟨S100000x1, .f32⟩
  | _ => ⟨S100000x128, .f32⟩

abbrev hbmTy0_2 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_15 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_c_16 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_17 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_18 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_19 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_c_20 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_21 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_22 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_23 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_c_24 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_25 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_26 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_27 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_c_28 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_29 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_30 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_cst_31 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_call0_cst : Ref sig .tc := ⟨.hbm, 234, rfl⟩
abbrev main_call0_v0 : Ref sig .tc := ⟨.hbm, 235, rfl⟩
abbrev main_v192 : Ref sig .tc := ⟨.hbm, 236, rfl⟩
abbrev main_cst_32 : Ref sig .tc := ⟨.hbm, 237, rfl⟩
abbrev main_v193 : Ref sig .tc := ⟨.hbm, 238, rfl⟩
abbrev main_v194 : Ref sig .tc := ⟨.hbm, 239, rfl⟩
abbrev main_cst_33 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_cst_34 : Ref sig .tc := ⟨.hbm, 246, rfl⟩
abbrev main_v200 : Ref sig .tc := ⟨.hbm, 247, rfl⟩
abbrev main_v201 : Ref sig .tc := ⟨.hbm, 248, rfl⟩
abbrev main_cst_35 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_36 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  slices_S8x128x128_S1x128x128_0_0_0 : S8x128x128.Slices ![0, 0, 0] S1x128x128
  shapeCasts_S1x128x128_S128x128 : S1x128x128.ShapeCasts S128x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.Spec.lean ====
/-
  One layer of a relational graph convolution — every node sums, relation by relation, the features of the sources of
  its incoming edges, averages them by the number of such edges (at least one), puts each relation's average through
  that relation's linear map, adds its own features' linear map and a bias —, then a rectifier and a layer
  normalisation with an affine map: the result as ONE function of the eight arrays, index by index, over the
  extended reals. Two arrangements of the relation term are stated: `relSum` sums first and maps after (one sum per
  node and relation), `relMap` maps every edge's features first, weighted by whether the edge has the relation, and
  sums after. Nothing here mentions a program.
-/
import Idealize.ShloMosaic.Lib.ValueIdx
import Idealize.ShloMosaic.PureOps.Ideal

noncomputable section

open scoped BigOperators

namespace Cert.GraphConv

open Idealize.ShloMosaic Idealize.ShloMosaic.ValueIdx

/-! ## The arrays -/

abbrev SNxD : Shape := ⟨2, ![100000, 128]⟩
abbrev S2xE : Shape := ⟨2, ![2, 600000]⟩
abbrev SE : Shape := ⟨1, ![600000]⟩
abbrev SDxD : Shape := ⟨2, ![128, 128]⟩
abbrev SD : Shape := ⟨1, ![128]⟩
abbrev SRxDxD : Shape := ⟨3, ![8, 128, 128]⟩
abbrev SBxD : Shape := ⟨2, ![2000, 128]⟩
abbrev SBxRxD : Shape := ⟨3, ![2000, 8, 128]⟩
abbrev SBxR : Shape := ⟨2, ![2000, 8]⟩

/-- The layer's eight arrays: node features [100000 × 128]; the edges' (source, destination) words [2 × 600000]; the
    edges' relation words [600000]; the self map [128 × 128] and bias [128]; the relations' maps [8 × 128 × 128];
    the normalisation's scale and shift [128]. -/
structure Args where
  h : SNxD.Idx → EReal
  ei : S2xE.Idx → BitVec 32
  et : SE.Idx → BitVec 32
  ws : SDxD.Idx → EReal
  bs : SD.Idx → EReal
  wr : SRxDxD.Idx → EReal
  gam : SD.Idx → EReal
  bet : SD.Idx → EReal

/-- The float words both programs carry. -/
abbrev oneF : EReal := Ideal.ofBits .f32 0x3F800000#32
abbrev c128 : EReal := Ideal.ofBits .f32 0x43000000#32
abbrev epsF : EReal := Ideal.ofBits .f32 0x3727C5AC#32

variable (a : Args)

/-! ## Edges -/

/-- The node a word names: its signed value, clamped into the node range. -/
def node (w : BitVec 32) : Fin 100000 := ⟨min w.toInt.toNat 99999, by omega⟩

/-- Edge `e`'s source, destination and relation words. -/
def srcW (e : Fin 600000) : BitVec 32 := a.ei (ix2 (0 : Fin 2) e)
def dstW (e : Fin 600000) : BitVec 32 := a.ei (ix2 (1 : Fin 2) e)
def typW (e : Fin 600000) : BitVec 32 := a.et (ix1 e)

/-- Feature `k` of edge `e`'s source node. -/
def feat (e : Fin 600000) (k : Fin 128) : EReal := a.h (ix2 (node (srcW a e)) k)

/-- The edges into node `n`, and those of them with relation `r`. -/
def intoNode (n : Fin 100000) : Finset (Fin 600000) :=
  Finset.univ.filter fun e => (dstW a e).toInt = (n.val : ℤ)
def edges (n : Fin 100000) (r : Fin 8) : Finset (Fin 600000) :=
  (intoNode a n).filter fun e => (typW a e).toInt = (r.val : ℤ)

/-- Whether edge `e` has relation `r`, as a weight 1 or 0. -/
def wgt (r : Fin 8) (e : Fin 600000) : EReal := if (typW a e).toInt = (r.val : ℤ) then 1 else 0

/-! ## The relation term, in two arrangements -/

/-- Sum first: the sum of the relation's incoming source features, times the reciprocal of their number (at least
    one), through the relation's map. -/
def relSum (r : Fin 8) (n : Fin 100000) (j : Fin 128) : EReal :=
  ∑ k : Fin 128, ((∑ e ∈ edges a n r, feat a e k) * Ideal.div oneF (max (∑ _e ∈ edges a n r, oneF) oneF))
    * a.wr (ix3 r j k)

/-- Map first: every incoming edge's weighted features through the relation's map, summed, divided by the sum of
    the weights (at least one). -/
def relMap (r : Fin 8) (n : Fin 100000) (j : Fin 128) : EReal :=
  Ideal.div (∑ e ∈ intoNode a n, ∑ k : Fin 128, (feat a e k * wgt a r e) * a.wr (ix3 r j k))
    (max (∑ e ∈ intoNode a n, wgt a r e) oneF)

/-! ## The layer -/

/-- The node's own features through the self map, plus the bias. -/
def selfTerm (n : Fin 100000) (j : Fin 128) : EReal :=
  (∑ k : Fin 128, a.h (ix2 n k) * a.ws (ix2 j k)) + a.bs (ix1 j)

/-- The value before the rectifier, over a given relation term: the self term, then the eight relations' terms added
    one after the other. -/
def pre (rel : Fin 8 → Fin 100000 → Fin 128 → EReal) (n : Fin 100000) (j : Fin 128) : EReal :=
  selfTerm a n j + rel 0 n j + rel 1 n j + rel 2 n j + rel 3 n j + rel 4 n j + rel 5 n j + rel 6 n j + rel 7 n j

/-- A row's layer normalisation at column `j`, with scale `g` and shift `b`: (x − mean) · rsqrt(variance + ε) · g + b,
    the mean and the variance as sums over the 128 columns divided by 128. -/
def normRow (x : Fin 128 → EReal) (g b : EReal) (j : Fin 128) : EReal :=
  ((x j - Ideal.div (∑ k : Fin 128, x k) c128)
      * Ideal.rsqrt (Ideal.div (∑ k : Fin 128, (x k - Ideal.div (∑ k' : Fin 128, x k') c128)
          * (x k - Ideal.div (∑ k' : Fin 128, x k') c128)) c128 + epsF))
    * g + b

/-- The layer's result at node `n`, column `j`, over a given relation term. -/
def outAt (rel : Fin 8 → Fin 100000 → Fin 128 → EReal) (n : Fin 100000) (j : Fin 128) : EReal :=
  normRow (fun q => max (pre a rel n q) 0) (a.gam (ix1 j)) (a.bet (ix1 j)) j

/-- … and as an array. -/
def outArr (rel : Fin 8 → Fin 100000 → Fin 128 → EReal) : SNxD.Idx → EReal :=
  fun i => outAt a rel ⟨(i 0).val, (i 0).isLt⟩ ⟨(i 1).val, (i 1).isLt⟩

theorem outArr_ix2 (rel : Fin 8 → Fin 100000 → Fin 128 → EReal) (n : Fin 100000) (j : Fin 128) :
    outArr a rel (ix2 n j) = outAt a rel n j := rfl

/-! ## One block of 2000 nodes, from the blocks of the arrays that hold it -/

/-- Relation `r`'s term of row `p` of a block: the block's summed features [2000 × 8 × 128] times its reciprocal
    counts [2000 × 8], through the transposed maps [8 × 128 × 128]. -/
def blkRel (x1 : SBxRxD.Idx → EReal) (x2 : SBxR.Idx → EReal) (x5 : SRxDxD.Idx → EReal) (r : Fin 8) (p : Fin 2000)
    (q : Fin 128) : EReal :=
  ∑ k : Fin 128, (x1 (ix3 p r k) * x2 (ix2 p r)) * x5 (ix3 r k q)

/-- The block's value before the rectifier: its features [2000 × 128] through the transposed self map, the bias, and
    the eight relation terms added one after the other. -/
def blkPre (x0 : SBxD.Idx → EReal) (x1 : SBxRxD.Idx → EReal) (x2 : SBxR.Idx → EReal) (x3 : SDxD.Idx → EReal)
    (x4 : SD.Idx → EReal) (x5 : SRxDxD.Idx → EReal) (p : Fin 2000) (q : Fin 128) : EReal :=
  ((∑ k : Fin 128, x0 (ix2 p k) * x3 (ix2 k q)) + x4 (ix1 q))
    + blkRel x1 x2 x5 0 p q + blkRel x1 x2 x5 1 p q + blkRel x1 x2 x5 2 p q + blkRel x1 x2 x5 3 p q
    + blkRel x1 x2 x5 4 p q + blkRel x1 x2 x5 5 p q + blkRel x1 x2 x5 6 p q + blkRel x1 x2 x5 7 p q

/-- The block's result: rectifier and normalisation of each of its rows. -/
def blkOut (x0 : SBxD.Idx → EReal) (x1 : SBxRxD.Idx → EReal) (x2 : SBxR.Idx → EReal) (x3 : SDxD.Idx → EReal)
    (x4 : SD.Idx → EReal) (x5 : SRxDxD.Idx → EReal) (x6 x7 : SD.Idx → EReal) : SBxD.Idx → EReal :=
  fun y => normRow (fun q => max (blkPre x0 x1 x2 x3 x4 x5 ⟨(y 0).val, (y 0).isLt⟩ q) 0)
    (x6 (ix1 ⟨(y 1).val, (y 1).isLt⟩)) (x7 (ix1 ⟨(y 1).val, (y 1).isLt⟩)) ⟨(y 1).val, (y 1).isLt⟩

/-! ## The domain -/

/-- What the layer's inputs are assumed to be: features and relation maps real numbers, every edge's two nodes in
    the node range, every edge's relation one of the eight. -/
structure Hyps : Prop where
  h_real : ∀ i, ∃ x : ℝ, a.h i = (x : EReal)
  wr_real : ∀ i, ∃ x : ℝ, a.wr i = (x : EReal)
  ei_rng : ∀ i, 0 ≤ (a.ei i).toInt ∧ (a.ei i).toInt < 100000
  et_rng : ∀ i, 0 ≤ (a.et i).toInt ∧ (a.et i).toInt < 8

end Cert.GraphConv

end
-- ==== Proof.PreDecode.lean ====
/-
  The stated precondition, read back: every float input finite and every edge word in its range give the layer's domain.
-/
import proofs.«413660_j81793357185090_2_alg».proof.Pre_finite_inputs
import proofs.«413660_j81793357185090_2_alg».proof.Proof.Gen.Pre_finite_inputs
import proofs.«413660_j81793357185090_2_alg».proof.Proof.Spec
import Idealize.ShloMosaic.Lib.ReduceAll
import Idealize.ShloMosaic.Lib.StableHlo.Predicate

noncomputable section

namespace Cert.GraphConv

open Idealize.ShloMosaic Idealize.ShloMosaic.ValueIdx

/-- The scalar shape has one index. -/
private instance subsingleton_scalar_idx : Subsingleton Cert.Pre_finite_inputs.S_.Idx :=
  ⟨fun _ _ => funext fun d => d.elim0⟩

/-- The pattern 0x7F800000 denotes +∞. -/
private theorem inf_eq_top : Ideal.ofBits .f32 0x7F800000#32 = (⊤ : EReal) := by
  simp [Ideal.ofBits, Ideal.ieee]

/-- An extended real whose absolute value max x (−x) lies strictly below +∞ is a real number: at ⊤ the
    maximum is ⊤ itself, at ⊥ it is −⊥ = ⊤, and neither is below ⊤. -/
private theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  unfold Ideal.cmp at h
  rw [StableHlo.Predicate.ofBool_eq_one_iff] at h
  have hlt : max x (-x) < ⊤ := of_decide_eq_true h
  induction x using EReal.rec with
  | bot => simp at hlt
  | coe r => exact ⟨r, rfl⟩
  | top => simp at hlt

/-- A 32-bit word that tests signed ≥ 0 and signed < n against the literal words has its signed value in [0, n). -/
private theorem rng_of_cmp (w : BitVec 32) (n : ℕ) (hn : n < 2 ^ 31)
    (h0 : IntOp.cmpi .sge w 0#32 = 1#1) (h1 : IntOp.cmpi .slt w (BitVec.ofNat 32 n) = 1#1) :
    0 ≤ w.toInt ∧ w.toInt < (n : ℤ) := by
  rw [IntOp.cmpi_sge] at h0
  rw [IntOp.cmpi_slt, StableHlo.Predicate.toInt_ofNat_small n hn] at h1
  exact ⟨by simpa using h0, h1⟩

/-- Where the precondition's predicate is all ones the arrays are in the layer's domain. -/
theorem hyps_of_pre [Cert.Pre_finite_inputs.Facts] (a : Args)
    (h : Cert.Pre_finite_inputs.fn (F := Ideal) a.h a.ei a.et a.ws a.bs a.wr a.gam a.bet = (fun _ => 1#1)) :
    Hyps a := by
  have e := congrFun h ValueIdx.ix0
  dsimp only [Cert.Pre_finite_inputs.fn, Cert.Pre_finite_inputs.fn_part1, Cert.Pre_finite_inputs.fn_part2] at e
  simp only [andi, IntOp.andi_eq_one] at e
  -- ten conjuncts, in the predicate's order: finiteness of the six float arrays (features, self map, bias, relation
  -- maps, scale, shift), then edge words ≥ 0, edge words < 100000, relation words ≥ 0, relation words < 8
  obtain ⟨⟨⟨⟨⟨⟨⟨⟨⟨hh, -⟩, -⟩, hwr⟩, -⟩, -⟩, hei0⟩, hei1⟩, het0⟩, het1⟩ := e
  refine ⟨fun i => ?_, fun i => ?_, fun i => ?_, fun i => ?_⟩
  · exact real_of_abs_lt (a.h i) (Host.reduce_andi_all _ _ _ _ _ hh i)
  · exact real_of_abs_lt (a.wr i) (Host.reduce_andi_all _ _ _ _ _ hwr i)
  · exact rng_of_cmp (a.ei i) 100000 (by norm_num)
      (Host.reduce_andi_all _ _ _ _ _ hei0 i) (Host.reduce_andi_all _ _ _ _ _ hei1 i)
  · exact rng_of_cmp (a.et i) 8 (by norm_num)
      (Host.reduce_andi_all _ _ _ _ _ het0 i) (Host.reduce_andi_all _ _ _ _ _ het1 i)

end Cert.GraphConv

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.KerHost.lean ====
/-
  What the kernel's host operations hand its region: the per-(node, relation) sums of source features, the reciprocal
  edge counts, and the transposed maps, each read at an index as the specification's terms.
-/
import proofs.«413660_j81793357185090_2_alg».proof.Proof.Gen.KernelIdeal.Frame
import proofs.«413660_j81793357185090_2_alg».proof.Proof.Spec
import proofs.«413660_j81793357185090_2_alg».proof.Proof.LibScatterRead
import Idealize.ShloMosaic.Lib.Pipeline.Value
import Idealize.ShloMosaic.Lib.IdealHost
import Idealize.ShloMosaic.Lib.WordArith

noncomputable section

open scoped BigOperators

namespace Cert.GraphConv.Ker

open Idealize.ShloMosaic Idealize.ShloMosaic.TcCoe Idealize.ShloMosaic.ValueIdx Idealize.SL.Sem
open Cert.KernelIdeal Cert.KernelIdeal.Gen Cert.GraphConv

variable (m : (ℓ : Loc nD τ sig) → Buf (Elt Ideal) ℓ)

/-- The layer's arrays as core `c` holds them when the program starts. -/
def argsK (c : Dev nD) : Args where
  h := m ((c.tc : Thread nD τ).loc main_arg0)
  ei := m ((c.tc : Thread nD τ).loc main_arg1)
  et := m ((c.tc : Thread nD τ).loc main_arg2)
  ws := m ((c.tc : Thread nD τ).loc main_arg3)
  bs := m ((c.tc : Thread nD τ).loc main_arg4)
  wr := m ((c.tc : Thread nD τ).loc main_arg5)
  gam := m ((c.tc : Thread nD τ).loc main_arg6)
  bet := m ((c.tc : Thread nD τ).loc main_arg7)

/-! ## The host operations' arrays, stage by stage, as functions of the three arrays they read -/

section Stages

variable (h : S100000x128.Idx → EReal) (ei : S2x600000.Idx → BitVec 32) (et : S600000.Idx → BitVec 32)

/-- Row 0 of the edge array as a vector: the source words. -/
private def srcV : S600000.Idx → BitVec 32 := fun i =>
  shapeCast S600000 (extractStridedSlice S1x600000 ![0, 0] ei slices_S2x600000_S1x600000_0_0) shapeCasts_S1x600000_S600000 i

/-- Row 1 of the edge array as a vector: the destination words. -/
private def dstV : S600000.Idx → BitVec 32 := fun i =>
  shapeCast S600000 (extractStridedSlice S1x600000 ![1, 0] ei slices_S2x600000_S1x600000_1_0) shapeCasts_S1x600000_S600000 i

/-- The bucket words: destination times eight plus relation. -/
private def bucketV : S600000.Idx → BitVec 32 :=
  addi (muli (dstV ei) (broadcastInDim S600000 ![] bcast_S_S600000 (constantI S_ 32 8#32))) et

/-- The source words with a negative one wrapped around by the node count. -/
private def wrapV : S600000.Idx → BitVec 32 :=
  select (cmpi CmpIPredicate.slt (srcV ei) (broadcastInDim S600000 ![] bcast_S_S600000 (constantI S_ 32 0#32)))
    (addi (srcV ei) (broadcastInDim S600000 ![] bcast_S_S600000 (constantI S_ 32 100000#32))) (srcV ei)

/-- … as a column. -/
private def colV : S600000x1.Idx → BitVec 32 := broadcastInDim S600000x1 ![0] bcast_S600000_S600000x1_0 (wrapV ei)

/-- Whether each wrapped source word lies in the node range. -/
private def maskV : S600000.Idx → BitVec 1 :=
  Host.reduce IntOp.andi
    (andi (cmpi CmpIPredicate.sge (colV ei) (broadcastInDim S600000x1 ![] bcast_S_S600000x1 (constantI S_ 32 0#32)))
      (cmpi CmpIPredicate.sle (colV ei)
        (broadcastInDim S600000x1 ![0, 1] bcast_S1x1_S600000x1_0_1
          (broadcastInDim S1x1 ![1] bcast_S1_S1x1_1 (constantI S1 32 99999#32)))))
    (constantI S_ 1 1#1) reducesTo_S600000x1_S600000_d1 h_S_

/-- The gathered source rows, a row whose word is out of range replaced by the fill constant. -/
private def takeV : S600000x128.Idx → EReal :=
  select (broadcastInDim S600000x128 ![0] bcast_S600000_S600000x128_0 (maskV ei))
    (Host.gather gather_S100000x128_S600000x1_S600000x128_1_0_n_n_0_1_1128 h (colV ei))
    (broadcastInDim S600000x128 ![] bcast_S_S600000x128 (constant (F := Ideal) S_ FTy.f32 0x7FC00000#32))

/-- The rows scattered by bucket and added, from zero. -/
private def sumV : S800000x128.Idx → EReal :=
  Host.scatterAdd (F := Ideal) scatter_S800000x128_S600000x1_S600000x128_1_0_0_1
    (broadcastInDim S800000x128 ![] bcast_S_S800000x128 (constant (F := Ideal) S_ FTy.f32 0x00000000#32))
    (broadcastInDim S600000x1 ![0] bcast_S600000_S600000x1_0 (bucketV ei et))
    (takeV h ei)

/-- Ones scattered by bucket and added, from zero: the buckets' counts. -/
private def cntV : S800000.Idx → EReal :=
  Host.scatterAdd (F := Ideal) scatter_S800000_S600000x1_S600000_n_0_0_1
    (broadcastInDim S800000 ![] bcast_S_S800000 (constant (F := Ideal) S_ FTy.f32 0x00000000#32))
    (broadcastInDim S600000x1 ![0] bcast_S600000_S600000x1_0 (bucketV ei et))
    (broadcastInDim S600000 ![] bcast_S_S600000 (constant (F := Ideal) S_ FTy.f32 0x3F800000#32))

/-- One over each count, the count raised to at least one. -/
private def invV : S800000.Idx → EReal :=
  Host.divf (F := Ideal) (broadcastInDim S800000 ![] bcast_S_S800000 (constant (F := Ideal) S_ FTy.f32 0x3F800000#32))
    (maximumf (F := Ideal) (cntV ei et)
      (broadcastInDim S800000 ![] bcast_S_S800000 (constant (F := Ideal) S_ FTy.f32 0x3F800000#32)))

end Stages

/-! ## The stages read at an index -/

section Reads

variable (h : S100000x128.Idx → EReal) (ei : S2x600000.Idx → BitVec 32) (et : S600000.Idx → BitVec 32)

/-- Row `j` of the edge array, cut out and flattened, at `e` is the array at `(j, e)`. -/
private theorem srcV_apply (e : Fin 600000) : srcV ei (ix1 e) = ei (ix2 (0 : Fin 2) e) := by
  show shapeCast S600000 (extractStridedSlice S1x600000 ![0, 0] ei slices_S2x600000_S1x600000_0_0)
    shapeCasts_S1x600000_S600000 (ix1 e) = _
  rw [shapeCast_apply _ _ (ix1 e) (ix2 (0 : Fin 1) e) (by
    rw [Shape.rowMajor_val_one, Shape.rowMajor_val_two]; show 0 * 600000 + e.val = e.val; omega)]
  exact extractStridedSlice_apply _ _ _ _ _ (fun a => match a with
    | ⟨0, _⟩ => rfl
    | ⟨1, _⟩ => by show e.val = 0 + e.val; omega)

private theorem dstV_apply (e : Fin 600000) : dstV ei (ix1 e) = ei (ix2 (1 : Fin 2) e) := by
  show shapeCast S600000 (extractStridedSlice S1x600000 ![1, 0] ei slices_S2x600000_S1x600000_1_0)
    shapeCasts_S1x600000_S600000 (ix1 e) = _
  rw [shapeCast_apply _ _ (ix1 e) (ix2 (0 : Fin 1) e) (by
    rw [Shape.rowMajor_val_one, Shape.rowMajor_val_two]; show 0 * 600000 + e.val = e.val; omega)]
  exact extractStridedSlice_apply _ _ _ _ _ (fun a => match a with
    | ⟨0, _⟩ => rfl
    | ⟨1, _⟩ => by show e.val = 0 + e.val; omega)

/-- A vector laid out as a one-column matrix reads, at row `v`, the vector at `v`. -/
private theorem col_apply {α : Type} (x : S600000.Idx → α) (v : Fin 600000) :
    broadcastInDim S600000x1 ![0] bcast_S600000_S600000x1_0 x (ix2 v (0 : Fin 1)) = x (ix1 v) :=
  broadcastInDim_apply _ _ _ _ (ix1 v) (fun a => match a with | ⟨0, _⟩ => rfl)

/-- The bucket word of edge `e`: its destination word times eight plus its relation word. -/
private theorem bucketV_apply (e : Fin 600000) : bucketV ei et (ix1 e) = ei (ix2 (1 : Fin 2) e) * 8#32 + et (ix1 e) := by
  show IntOp.addi (IntOp.muli (dstV ei (ix1 e)) 8#32) (et (ix1 e)) = _
  rw [dstV_apply]
  rfl

/-- A source word that is not negative is not wrapped. -/
private theorem wrapV_apply (e : Fin 600000) (h0 : 0 ≤ (ei (ix2 (0 : Fin 2) e)).toInt) :
    wrapV ei (ix1 e) = ei (ix2 (0 : Fin 2) e) := by
  show Scalar.select (IntOp.cmpi CmpIPredicate.slt (srcV ei (ix1 e)) 0#32)
    (IntOp.addi (srcV ei (ix1 e)) 100000#32) (srcV ei (ix1 e)) = _
  rw [srcV_apply]
  have hc : IntOp.cmpi CmpIPredicate.slt (ei (ix2 (0 : Fin 2) e)) 0#32 = 0#1 := by
    show BitVec.ofBool ((ei (ix2 (0 : Fin 2) e)).slt 0#32) = 0#1
    have hf : (ei (ix2 (0 : Fin 2) e)).slt 0#32 = false := by
      rw [Bool.eq_false_iff]
      intro hh
      have := BitVec.slt_iff_toInt_lt.mp hh
      have z : (0#32 : BitVec 32).toInt = 0 := by decide
      omega
    rw [hf]; rfl
  rw [hc, select_zero]

private theorem colV_apply (e : Fin 600000) : colV ei (ix2 e (0 : Fin 1)) = wrapV ei (ix1 e) := col_apply _ e

/-- A conjunction folded over words that are all one, from one, is one. -/
private theorem foldl_andi_one {ι : Type} (g : ι → BitVec 1) (l : List ι) (hg : ∀ n ∈ l, g n = 1#1) :
    l.foldl (fun r n => IntOp.andi r (g n)) 1#1 = 1#1 := by
  induction l with
  | nil => rfl
  | cons a l ih =>
    rw [List.foldl_cons, hg a (List.mem_cons_self ..)]
    have h1 : IntOp.andi (1#1 : BitVec 1) 1#1 = 1#1 := by decide
    rw [h1]
    exact ih (fun n hn => hg n (List.mem_cons_of_mem _ hn))

/-- With every source word in the node range, the range mask is one everywhere. -/
private theorem maskV_eq_one (hr : ∀ e : Fin 600000, 0 ≤ (ei (ix2 (0 : Fin 2) e)).toInt ∧ (ei (ix2 (0 : Fin 2) e)).toInt < 100000)
    (i : S600000.Idx) : maskV ei i = 1#1 := by
  unfold maskV
  rw [Host.reduce_eq_foldl]
  refine foldl_andi_one _ _ (fun j _ => ?_)
  obtain ⟨e, q, rfl⟩ : ∃ (e : Fin 600000) (q : Fin 1), j = ix2 e q := ⟨j 0, j 1, eq_ix2 j⟩
  obtain rfl : q = 0 := Subsingleton.elim _ _
  show IntOp.andi (IntOp.cmpi CmpIPredicate.sge (colV ei (ix2 e (0 : Fin 1))) 0#32)
    (IntOp.cmpi CmpIPredicate.sle (colV ei (ix2 e (0 : Fin 1))) 99999#32) = 1#1
  rw [colV_apply, wrapV_apply ei e (hr e).1]
  obtain ⟨h0, h1⟩ := hr e
  have z : (0#32 : BitVec 32).toInt = 0 := by decide
  have z9 : (99999#32 : BitVec 32).toInt = 99999 := by decide
  have ha : (0#32 : BitVec 32).sle (ei (ix2 (0 : Fin 2) e)) = true := BitVec.sle_iff_toInt_le.mpr (by omega)
  have hb : (ei (ix2 (0 : Fin 2) e)).sle 99999#32 = true := BitVec.sle_iff_toInt_le.mpr (by omega)
  show IntOp.andi (BitVec.ofBool ((0#32 : BitVec 32).sle (ei (ix2 (0 : Fin 2) e))))
    (BitVec.ofBool ((ei (ix2 (0 : Fin 2) e)).sle 99999#32)) = 1#1
  rw [ha, hb]
  rfl

/-- With every source word in the node range, the taken row of edge `e` is its source node's row. -/
private theorem takeV_apply (hr : ∀ e : Fin 600000, 0 ≤ (ei (ix2 (0 : Fin 2) e)).toInt ∧ (ei (ix2 (0 : Fin 2) e)).toInt < 100000)
    (e : Fin 600000) (k : Fin 128) : takeV h ei (ix2 e k) = h (ix2 (node (ei (ix2 (0 : Fin 2) e))) k) := by
  have hc : colV ei (ix2 e (0 : Fin 1)) = ei (ix2 (0 : Fin 2) e) := by rw [colV_apply, wrapV_apply ei e (hr e).1]
  unfold takeV
  rw [select_apply, show broadcastInDim S600000x128 ![0] bcast_S600000_S600000x128_0 (maskV ei) (ix2 e k) = 1#1 from
      maskV_eq_one ei hr _, select_one,
    ScatterRead.gather_rows_apply (by decide) _ rfl rfl rfl rfl rfl rfl rfl]
  refine congrArg (fun q => h (ix2 q k)) (Fin.ext ?_)
  show min (colV ei (ix2 e (0 : Fin 1))).toInt.toNat (100000 - 1) = min (ei (ix2 (0 : Fin 2) e)).toInt.toNat 99999
  rw [hc]

/-- The scattered sum at bucket `g`, column `k`: the taken rows of the edges whose bucket word is `g`, added. -/
private theorem sumV_apply (g : Fin 800000) (k : Fin 128) :
    sumV h ei et (ix2 g k)
      = ∑ v ∈ Finset.univ.filter (fun v : Fin 600000 => (bucketV ei et (ix1 v)).toInt = (g.val : ℤ)),
          takeV h ei (ix2 v k) := by
  rw [sumV, Host.scatterAdd, Ideal.hostScatterAdd_def, ScatterRead.scatterAdd_rows_apply _ rfl rfl rfl rfl]
  rw [broadcastInDim_scalar_apply, constant_apply, Ideal.ofBits_zero_f32, zero_add]
  exact Finset.sum_congr (Finset.filter_congr (fun v _ => by rw [col_apply])) (fun _ _ => rfl)

/-- The scattered count at bucket `g`: a one for each edge whose bucket word is `g`. -/
private theorem cntV_apply (g : Fin 800000) :
    cntV ei et (ix1 g)
      = ∑ _v ∈ Finset.univ.filter (fun v : Fin 600000 => (bucketV ei et (ix1 v)).toInt = (g.val : ℤ)), oneF := by
  rw [cntV, Host.scatterAdd, Ideal.hostScatterAdd_def, ScatterRead.scatterAdd_flat_apply _ rfl rfl rfl rfl]
  rw [broadcastInDim_scalar_apply, constant_apply, Ideal.ofBits_zero_f32, zero_add]
  exact Finset.sum_congr (Finset.filter_congr (fun v _ => by rw [col_apply]))
    (fun v _ => by rw [broadcastInDim_scalar_apply, constant_apply])

/-- The bucket word of an in-range destination and relation, read signed, is eight times the one plus the other. -/
private theorem bucket_toInt (d t : BitVec 32) (hd : 0 ≤ d.toInt ∧ d.toInt < 100000) (ht : 0 ≤ t.toInt ∧ t.toInt < 8) :
    (d * 8#32 + t).toInt = d.toInt * 8 + t.toInt := by
  have h8 : (8#32 : BitVec 32).toInt = 8 := by decide
  have hm : (d * 8#32).toInt = d.toInt * 8 := by
    rw [WordArith.toInt_mul_of_bounds _ _ (by rw [h8]; omega) (by rw [h8]; omega), h8]
  rw [WordArith.toInt_add_of_bounds _ _ (by rw [hm]; omega) (by rw [hm]; omega), hm]

end Reads

/-! ## The buckets are the specification's edge sets -/

/-- Under the ranges, an edge's bucket word is `8 n + r` exactly when its destination is `n` and its relation `r`. -/
private theorem bucket_filter (a : Args) (hy : Hyps a) (n : Fin 100000) (r : Fin 8) (g : Fin 800000)
    (hg : g.val = 8 * n.val + r.val) :
    Finset.univ.filter (fun v : Fin 600000 => (bucketV a.ei a.et (ix1 v)).toInt = (g.val : ℤ)) = edges a n r := by
  ext v
  simp only [edges, intoNode, Finset.mem_filter, Finset.mem_univ, true_and]
  show _ ↔ (a.ei (ix2 (1 : Fin 2) v)).toInt = (n.val : ℤ) ∧ (a.et (ix1 v)).toInt = (r.val : ℤ)
  rw [bucketV_apply, bucket_toInt _ _ (hy.ei_rng _) (hy.et_rng _), hg]
  have h1 := hy.ei_rng (ix2 (1 : Fin 2) v)
  have h2 := hy.et_rng (ix1 v)
  have h3 := n.isLt
  have h4 := r.isLt
  constructor
  · intro h
    constructor <;> omega
  · rintro ⟨h5, h6⟩
    omega

/-! ## The two arrays as terms of the stages -/

set_option maxHeartbeats 1000000 in
/-- The summed-features array is the reshape of the scattered rows. -/
private theorem V_sum_term (c : Dev nD) :
    (V m c main_v15 : S100000x8x128.Idx → EReal)
      = fun i => shapeCast S100000x8x128 (sumV (argsK m c).h (argsK m c).ei (argsK m c).et)
          shapeCasts_S800000x128_S100000x8x128 i := by
  dsimp only [Gen.V]
  simp only [hostOps0, hostOps0_1, hostOps0_2, List.flatten_cons, List.flatten_nil, List.append_nil, List.cons_append,
    List.nil_append]
  after_results_simp
  simp only [StableHlo.TRef.ofBuf, StableHlo.TRef.toBuf, cast_eq]
  rfl

set_option maxHeartbeats 1000000 in
/-- The reciprocal-count array is the reshape of the reciprocals. -/
private theorem V_inv_term (c : Dev nD) :
    (V m c main_v20 : S100000x8.Idx → EReal)
      = fun i => shapeCast S100000x8 (invV (argsK m c).ei (argsK m c).et) shapeCasts_S800000_S100000x8 i := by
  dsimp only [Gen.V]
  simp only [hostOps0, hostOps0_1, hostOps0_2, List.flatten_cons, List.flatten_nil, List.append_nil, List.cons_append,
    List.nil_append]
  after_results_simp
  rfl

/-! ## The two arrays read at an index -/

/-- The summed-features array the region finds: at (n, r, k), the sum over the edges into `n` with relation `r` of
    feature `k` of their sources. -/
theorem V_sum (c : Dev nD) (hy : Hyps (argsK m c)) (n : Fin 100000) (r : Fin 8) (k : Fin 128) :
    (V m c main_v15 : S100000x8x128.Idx → EReal) (ix3 n r k) = ∑ e ∈ edges (argsK m c) n r, feat (argsK m c) e k := by
  rw [V_sum_term]
  show shapeCast S100000x8x128 (sumV (argsK m c).h (argsK m c).ei (argsK m c).et)
    shapeCasts_S800000x128_S100000x8x128 (ix3 n r k) = _
  rw [shapeCast_apply _ _ (ix3 n r k) (ix2 (⟨8 * n.val + r.val, by omega⟩ : Fin 800000) k) (by
    rw [Shape.rowMajor_val_two, Shape.rowMajor_val_three]
    show (8 * n.val + r.val) * 128 + k.val = (n.val * 8 + r.val) * 128 + k.val
    omega), sumV_apply]
  exact Finset.sum_congr (bucket_filter (argsK m c) hy n r _ rfl)
    (fun e _ => takeV_apply _ _ (fun e' => hy.ei_rng _) e k)

/-- The reciprocal-count array the region finds: at (n, r), one over the number of those edges, at least one. -/
theorem V_inv (c : Dev nD) (hy : Hyps (argsK m c)) (n : Fin 100000) (r : Fin 8) :
    (V m c main_v20 : S100000x8.Idx → EReal) (ix2 n r)
      = Ideal.div oneF (max (∑ _e ∈ edges (argsK m c) n r, oneF) oneF) := by
  rw [V_inv_term]
  show shapeCast S100000x8 (invV (argsK m c).ei (argsK m c).et) shapeCasts_S800000_S100000x8 (ix2 n r) = _
  rw [shapeCast_apply _ _ (ix2 n r) (ix1 (⟨8 * n.val + r.val, by omega⟩ : Fin 800000)) (by
    rw [Shape.rowMajor_val_one, Shape.rowMajor_val_two]
    show 8 * n.val + r.val = n.val * 8 + r.val
    omega)]
  rw [invV, hostDivf_apply, maximumf_apply, broadcastInDim_scalar_apply, constant_apply, cntV_apply,
    bucket_filter (argsK m c) hy n r _ rfl]

end Cert.GraphConv.Ker

end
-- ==== Proof.KerX.lean ====
/-
  The kernel body's rectified value of a block, read at an index: the block's features through the transposed self
  map plus the bias, plus, relation by relation, the summed features scaled by the reciprocal counts through the
  relation's transposed map, then the rectifier.
-/
import proofs.«413660_j81793357185090_2_alg».proof.Proof.Gen.KernelIdeal.Value
import proofs.«413660_j81793357185090_2_alg».proof.Proof.Spec
import Idealize.ShloMosaic.PureOps.Ideal.Laws
import Idealize.ShloMosaic.Lib.ValueLayout

noncomputable section

open scoped BigOperators

namespace Cert.GraphConv.Ker

open Idealize.ShloMosaic Idealize.ShloMosaic.TcCoe Idealize.ShloMosaic.ValueIdx Idealize.SL.Sem
open Cert.KernelIdeal Cert.KernelIdeal.Gen Cert.GraphConv

/-- The body's rectified value [2000 × 128] as a term of its loads. -/
abbrev Xof (P0 : Vec Ideal S2000x8 .f32) (P1 : Vec Ideal S2000x128 .f32) (P2 : Vec Ideal S128x128 .f32) (P3 : Vec Ideal S128 .f32) (P4 : Vec Ideal S2000x1x128 .f32) (P5 : Vec Ideal S1x128x128 .f32) (P6 : Vec Ideal S2000x1x128 .f32) (P7 : Vec Ideal S1x128x128 .f32) (P8 : Vec Ideal S2000x1x128 .f32) (P9 : Vec Ideal S1x128x128 .f32) (P10 : Vec Ideal S2000x1x128 .f32) (P11 : Vec Ideal S1x128x128 .f32) (P12 : Vec Ideal S2000x1x128 .f32) (P13 : Vec Ideal S1x128x128 .f32) (P14 : Vec Ideal S2000x1x128 .f32) (P15 : Vec Ideal S1x128x128 .f32) (P16 : Vec Ideal S2000x1x128 .f32) (P17 : Vec Ideal S1x128x128 .f32) (P18 : Vec Ideal S2000x1x128 .f32) (P19 : Vec Ideal S1x128x128 .f32) : Vec Ideal S2000x128 .f32 :=
  (k0_pay7 (shapeCast S2000x8 P0 shapeCasts_S2000x8_S2000x8) (k0_pay5 (shapeCast S2000x8 P0 shapeCasts_S2000x8_S2000x8) (k0_pay3 P1 P2 P3 P0 P4 P5 P6 P7) (shapeCast S2000x128 P8 shapeCasts_S2000x1x128_S2000x128) P9 P10 P11 P12 P13) (mulf (shapeCast S2000x128 P14 shapeCasts_S2000x1x128_S2000x128) (broadcastTo S2000x128 (shapeCast S2000x1 (shapeCast S2000 (extractStridedSlice S2000x1 ![0, 5] (shapeCast S2000x8 P0 shapeCasts_S2000x8_S2000x8) slices_S2000x8_o0_5_S2000x1) shapeCasts_S2000x1_S2000) shapeCasts_S2000_S2000x1) broadcasts_S2000x1_S2000x128)) P15 P16 P17 P18 P19)

/-! ## A block product at an index

The block product contracts the left operand's axis 1 with the right operand's axis 0; its operand indices at the
output index `(p, q)` and contraction position `k` are `(p, k)` and `(k, q)`. -/

private theorem lhs_dot_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

private theorem lhs_dot_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

private theorem rhs_dot_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

private theorem rhs_dot_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, at `(p, q)`: the sum over `k` of the left operand at `(p, k)` times
    the right operand at `(k, q)`. -/
private theorem mm_apply (A : FVec Ideal S2000x128 .f32) (B : FVec Ideal S128x128 .f32) (p : Fin 2000) (q : Fin 128) :
    matmul dot_S2000x128_S128x128_S2000x128_1_0_0_1_n_n (some .fp32) A B (constant (F := Ideal) S2000x128 .f32 0x00000000#32) (ix2 p q)
      = ∑ k : Fin 128, A (ix2 p k) * B (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The layout operations at an index -/

/-- A `[2000, 1, 128]` block cast to `[2000, 128]` reads, at `(p, k)`, the block at `(p, 0, k)`. -/
private theorem row_apply (P : FVec Ideal S2000x1x128 .f32) (p : Fin 2000) (k : Fin 128) :
    shapeCast S2000x128 P shapeCasts_S2000x1x128_S2000x128 (ix2 p k) = P (ix3 p (0 : Fin 1) k) :=
  shapeCast_apply P _ _ _ (by
    rw [Shape.rowMajor_val_three, Shape.rowMajor_val_two]
    show (p.val * 1 + 0) * 128 + k.val = p.val * 128 + k.val
    omega)

/-- A `[1, 128, 128]` block cast to `[128, 128]` reads, at `(k, q)`, the block at `(0, k, q)`. -/
private theorem mat_apply (W : FVec Ideal S1x128x128 .f32) (k q : Fin 128) :
    shapeCast S128x128 W shapeCasts_S1x128x128_S128x128 (ix2 k q) = W (ix3 (0 : Fin 1) k q) :=
  shapeCast_1ab_ab_apply W _ k q

/-- The bias `[128]` cast to one row and broadcast over the 2000 rows reads, at `(p, q)`, the bias at `q`. -/
private theorem bias_apply (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ _ p q).trans (shapeCast_a_1a_apply b _ (0 : Fin 1) q)

/-- Column `r` of the `[2000, 8]` reciprocal counts, cut out, cast to `[2000]` and back to `[2000, 1]` and broadcast
    over the 128 columns, reads, at `(p, k)`, the counts at `(p, r)`. -/
private theorem col_apply (V : FVec Ideal S2000x8 .f32) (o : Nat) (h : S2000x8.Slices ![0, o] S2000x1) (r : Fin 8) (hr : r.val = o)
    (p : Fin 2000) (k : Fin 128) :
    broadcastTo S2000x128 (shapeCast S2000x1 (shapeCast S2000 (extractStridedSlice S2000x1 ![0, o] V h)
      shapeCasts_S2000x1_S2000) shapeCasts_S2000_S2000x1) broadcasts_S2000x1_S2000x128 (ix2 p k) = V (ix2 p r) := by
  refine (broadcastTo_apply _ _ (ix2 p k) (ix2 p (0 : Fin 1)) (fun a => match a with
    | ⟨0, _⟩ => by show p.val = (if (2000 : Nat) = 1 then 0 else p.val); rw [if_neg (by decide)]
    | ⟨1, _⟩ => by show 0 = (if (1 : Nat) = 1 then 0 else k.val); rw [if_pos rfl])).trans ?_
  refine (shapeCast_apply _ _ (ix2 p (0 : Fin 1)) (ix1 p) (by
    rw [Shape.rowMajor_val_one, Shape.rowMajor_val_two]; show p.val = p.val * 1 + 0; omega)).trans ?_
  refine (shapeCast_apply _ _ (ix1 p) (ix2 p (0 : Fin 1)) (by
    rw [Shape.rowMajor_val_one, Shape.rowMajor_val_two]; show p.val * 1 + 0 = p.val; omega)).trans ?_
  exact slice2_axis1_apply o V h p (0 : Fin 1) r (by show r.val = o + 0; omega)

/-! ## The payloads at an index -/

/-- The rectifier's zero word is the extended real zero. -/
private theorem zero_word : Scalar.ofBits (F := Ideal) .f32 0x00000000#32 = (0 : EReal) := Ideal.ofBits_zero_f32

/-- The first part's value at `(p, q)`: the features through the self map plus the bias, plus the terms of relations
    0 and 1. -/
private theorem pay3_apply (v0 : Vec Ideal S2000x128 .f32) (v1 : Vec Ideal S128x128 .f32) (v4 : Vec Ideal S128 .f32)
    (v8 : Vec Ideal S2000x8 .f32) (v10 : Vec Ideal S2000x1x128 .f32) (v17 : Vec Ideal S1x128x128 .f32)
    (v21 : Vec Ideal S2000x1x128 .f32) (v28 : Vec Ideal S1x128x128 .f32) (p : Fin 2000) (q : Fin 128) :
    k0_pay3 v0 v1 v4 v8 v10 v17 v21 v28 (ix2 p q)
      = ((∑ k : Fin 128, v0 (ix2 p k) * v1 (ix2 k q)) + v4 (ix1 q))
        + (∑ k : Fin 128, (v10 (ix3 p (0 : Fin 1) k) * v8 (ix2 p (0 : Fin 8))) * v17 (ix3 (0 : Fin 1) k q))
        + (∑ k : Fin 128, (v21 (ix3 p (0 : Fin 1) k) * v8 (ix2 p (1 : Fin 8))) * v28 (ix3 (0 : Fin 1) k q)) := by
  unfold k0_pay3 k0_pay2
  simp only [addf_apply, mm_apply, mulf_apply, shapeCast_self, bias_apply, row_apply, mat_apply,
    col_apply _ 0 _ (0 : Fin 8) rfl, col_apply _ 1 _ (1 : Fin 8) rfl]

/-- The second part's value at `(p, q)`: what it was handed plus the terms of relations 2, 3 and 4 (relation 2's
    summed features arrive already cast to `[2000, 128]`). -/
private theorem pay5_apply (v9 : FVec Ideal S2000x8 .f32) (v31 v33 : FVec Ideal S2000x128 .f32)
    (v39 : Vec Ideal S1x128x128 .f32) (v43 : Vec Ideal S2000x1x128 .f32) (v50 : Vec Ideal S1x128x128 .f32)
    (v54 : Vec Ideal S2000x1x128 .f32) (v61 : Vec Ideal S1x128x128 .f32) (p : Fin 2000) (q : Fin 128) :
    k0_pay5 v9 v31 v33 v39 v43 v50 v54 v61 (ix2 p q)
      = v31 (ix2 p q)
        + (∑ k : Fin 128, (v33 (ix2 p k) * v9 (ix2 p (2 : Fin 8))) * v39 (ix3 (0 : Fin 1) k q))
        + (∑ k : Fin 128, (v43 (ix3 p (0 : Fin 1) k) * v9 (ix2 p (3 : Fin 8))) * v50 (ix3 (0 : Fin 1) k q))
        + (∑ k : Fin 128, (v54 (ix3 p (0 : Fin 1) k) * v9 (ix2 p (4 : Fin 8))) * v61 (ix3 (0 : Fin 1) k q)) := by
  unfold k0_pay5
  simp only [addf_apply, mm_apply, mulf_apply, row_apply, mat_apply,
    col_apply _ 2 _ (2 : Fin 8) rfl, col_apply _ 3 _ (3 : Fin 8) rfl, col_apply _ 4 _ (4 : Fin 8) rfl]

/-- The third part's value at `(p, q)`: what it was handed plus the terms of relations 5, 6 and 7 (relation 5's
    scaled features arrive whole), then the rectifier. -/
private theorem pay7_apply (v9 : FVec Ideal S2000x8 .f32) (v64 v71 : FVec Ideal S2000x128 .f32)
    (v72 : Vec Ideal S1x128x128 .f32) (v76 : Vec Ideal S2000x1x128 .f32) (v83 : Vec Ideal S1x128x128 .f32)
    (v87 : Vec Ideal S2000x1x128 .f32) (v94 : Vec Ideal S1x128x128 .f32) (p : Fin 2000) (q : Fin 128) :
    k0_pay7 v9 v64 v71 v72 v76 v83 v87 v94 (ix2 p q)
      = max (v64 (ix2 p q)
        + (∑ k : Fin 128, v71 (ix2 p k) * v72 (ix3 (0 : Fin 1) k q))
        + (∑ k : Fin 128, (v76 (ix3 p (0 : Fin 1) k) * v9 (ix2 p (6 : Fin 8))) * v83 (ix3 (0 : Fin 1) k q))
        + (∑ k : Fin 128, (v87 (ix3 p (0 : Fin 1) k) * v9 (ix2 p (7 : Fin 8))) * v94 (ix3 (0 : Fin 1) k q))) 0 := by
  unfold k0_pay7
  simp only [maximumf_apply, broadcast_apply, zero_word, addf_apply, mm_apply, mulf_apply, row_apply, mat_apply,
    col_apply _ 6 _ (6 : Fin 8) rfl, col_apply _ 7 _ (7 : Fin 8) rfl]

/-! ## The loads at an index -/

/-- The load of relation `r`'s summed features, `[2000, 1, 128]` from offset `(0, r, 0)`, reads at `(p, 0, k)` the
    block's summed features at `(p, r, k)`. -/
private theorem ld_sum (x1 : Vec Ideal S2000x8x128 .f32) (o : Nat)
    (inb : ∀ a, (![0, o, 0] : Fin 3 → Nat) a + S2000x1x128.size a ≤ S2000x8x128.size a) (r : Fin 8) (hr : r.val = o)
    (p : Fin 2000) (k : Fin 128) :
    View.ld x1 (Rect.unit (s := S2000x8x128) ![0, o, 0] S2000x1x128.size inb) (ix3 p (0 : Fin 1) k) = x1 (ix3 p r k) :=
  congrArg x1 (funext fun a => Fin.ext (by
    match a with
    | ⟨0, _⟩ => show 0 + 1 * p.val = p.val; omega
    | ⟨1, _⟩ => show o + 1 * 0 = r.val; omega
    | ⟨2, _⟩ => show 0 + 1 * k.val = k.val; omega))

/-- The load of relation `r`'s transposed map, `[1, 128, 128]` from offset `(r, 0, 0)`, reads at `(0, k, q)` the maps
    at `(r, k, q)`. -/
private theorem ld_map (x5 : Vec Ideal S8x128x128 .f32) (o : Nat)
    (inb : ∀ a, (![o, 0, 0] : Fin 3 → Nat) a + S1x128x128.size a ≤ S8x128x128.size a) (r : Fin 8) (hr : r.val = o)
    (k q : Fin 128) :
    View.ld x5 (Rect.unit (s := S8x128x128) ![o, 0, 0] S1x128x128.size inb) (ix3 (0 : Fin 1) k q) = x5 (ix3 r k q) :=
  congrArg x5 (funext fun a => Fin.ext (by
    match a with
    | ⟨0, _⟩ => show o + 1 * 0 = r.val; omega
    | ⟨1, _⟩ => show 0 + 1 * k.val = k.val; omega
    | ⟨2, _⟩ => show 0 + 1 * q.val = q.val; omega))

/-! ## The rectified value -/

/-- Over any twenty vectors that read the six blocks as the body's loads do — the counts, the features, the self
    map and the bias whole, relation `r`'s summed features at `(p, 0, k)` as the block's at `(p, r, k)`, its map at
    `(0, k, q)` as the maps at `(r, k, q)` —, the rectified value at `(p, q)` is the rectifier of the block's
    pre-activation there. -/
private theorem X_of_loads (x0 : Vec Ideal S2000x128 .f32) (x1 : Vec Ideal S2000x8x128 .f32) (x2 : Vec Ideal S2000x8 .f32)
    (x3 : Vec Ideal S128x128 .f32) (x4 : Vec Ideal S128 .f32) (x5 : Vec Ideal S8x128x128 .f32)
    (P0 : Vec Ideal S2000x8 .f32) (P1 : Vec Ideal S2000x128 .f32) (P2 : Vec Ideal S128x128 .f32) (P3 : Vec Ideal S128 .f32) (P4 : Vec Ideal S2000x1x128 .f32) (P5 : Vec Ideal S1x128x128 .f32) (P6 : Vec Ideal S2000x1x128 .f32) (P7 : Vec Ideal S1x128x128 .f32) (P8 : Vec Ideal S2000x1x128 .f32) (P9 : Vec Ideal S1x128x128 .f32) (P10 : Vec Ideal S2000x1x128 .f32) (P11 : Vec Ideal S1x128x128 .f32) (P12 : Vec Ideal S2000x1x128 .f32) (P13 : Vec Ideal S1x128x128 .f32) (P14 : Vec Ideal S2000x1x128 .f32) (P15 : Vec Ideal S1x128x128 .f32) (P16 : Vec Ideal S2000x1x128 .f32) (P17 : Vec Ideal S1x128x128 .f32) (P18 : Vec Ideal S2000x1x128 .f32) (P19 : Vec Ideal S1x128x128 .f32)
    (h0 : P0 = x2) (h1 : P1 = x0) (h2 : P2 = x3) (h3 : P3 = x4)
    (h4 : ∀ (p : Fin 2000) (k : Fin 128), P4 (ix3 p (0 : Fin 1) k) = x1 (ix3 p (0 : Fin 8) k))
    (h5 : ∀ (k q : Fin 128), P5 (ix3 (0 : Fin 1) k q) = x5 (ix3 (0 : Fin 8) k q))
    (h6 : ∀ (p : Fin 2000) (k : Fin 128), P6 (ix3 p (0 : Fin 1) k) = x1 (ix3 p (1 : Fin 8) k))
    (h7 : ∀ (k q : Fin 128), P7 (ix3 (0 : Fin 1) k q) = x5 (ix3 (1 : Fin 8) k q))
    (h8 : ∀ (p : Fin 2000) (k : Fin 128), P8 (ix3 p (0 : Fin 1) k) = x1 (ix3 p (2 : Fin 8) k))
    (h9 : ∀ (k q : Fin 128), P9 (ix3 (0 : Fin 1) k q) = x5 (ix3 (2 : Fin 8) k q))
    (h10 : ∀ (p : Fin 2000) (k : Fin 128), P10 (ix3 p (0 : Fin 1) k) = x1 (ix3 p (3 : Fin 8) k))
    (h11 : ∀ (k q : Fin 128), P11 (ix3 (0 : Fin 1) k q) = x5 (ix3 (3 : Fin 8) k q))
    (h12 : ∀ (p : Fin 2000) (k : Fin 128), P12 (ix3 p (0 : Fin 1) k) = x1 (ix3 p (4 : Fin 8) k))
    (h13 : ∀ (k q : Fin 128), P13 (ix3 (0 : Fin 1) k q) = x5 (ix3 (4 : Fin 8) k q))
    (h14 : ∀ (p : Fin 2000) (k : Fin 128), P14 (ix3 p (0 : Fin 1) k) = x1 (ix3 p (5 : Fin 8) k))
    (h15 : ∀ (k q : Fin 128), P15 (ix3 (0 : Fin 1) k q) = x5 (ix3 (5 : Fin 8) k q))
    (h16 : ∀ (p : Fin 2000) (k : Fin 128), P16 (ix3 p (0 : Fin 1) k) = x1 (ix3 p (6 : Fin 8) k))
    (h17 : ∀ (k q : Fin 128), P17 (ix3 (0 : Fin 1) k q) = x5 (ix3 (6 : Fin 8) k q))
    (h18 : ∀ (p : Fin 2000) (k : Fin 128), P18 (ix3 p (0 : Fin 1) k) = x1 (ix3 p (7 : Fin 8) k))
    (h19 : ∀ (k q : Fin 128), P19 (ix3 (0 : Fin 1) k q) = x5 (ix3 (7 : Fin 8) k q))
    (p : Fin 2000) (q : Fin 128) :
    Xof P0 P1 P2 P3 P4 P5 P6 P7 P8 P9 P10 P11 P12 P13 P14 P15 P16 P17 P18 P19 (ix2 p q) = max (blkPre x0 x1 x2 x3 x4 x5 p q) 0 := by
  subst h0 h1 h2 h3
  unfold Xof
  rw [pay7_apply, pay5_apply, pay3_apply]
  simp only [shapeCast_self, mulf_apply, row_apply, col_apply _ 5 _ (5 : Fin 8) rfl, h4, h5, h6, h7, h8, h9, h10, h11, h12, h13, h14, h15, h16, h17, h18, h19]
  rfl

/-- Over the loads of a point's blocks, the rectified value at (p, q) is the rectifier of the block's
    pre-activation there. -/
theorem X_apply (x0 : Vec Ideal S2000x128 .f32) (x1 : Vec Ideal S2000x8x128 .f32) (x2 : Vec Ideal S2000x8 .f32) (x3 : Vec Ideal S128x128 .f32) (x4 : Vec Ideal S128 .f32) (x5 : Vec Ideal S8x128x128 .f32) (p : Fin 2000) (q : Fin 128) :
    Xof (View.ld x2 r0_3) (View.ld x0 r0_0) (View.ld x3 r0_1) (View.ld x4 r0_2) (View.ld x1 r0_4) (View.ld x5 r0_5) (View.ld x1 r0_6) (View.ld x5 r0_7) (View.ld x1 r0_8) (View.ld x5 r0_9) (View.ld x1 r0_10) (View.ld x5 r0_11) (View.ld x1 r0_12) (View.ld x5 r0_13) (View.ld x1 r0_14) (View.ld x5 r0_15) (View.ld x1 r0_16) (View.ld x5 r0_17) (View.ld x1 r0_18) (View.ld x5 r0_19) (ix2 p q)
      = max (blkPre x0 x1 x2 x3 x4 x5 p q) 0 :=
  X_of_loads x0 x1 x2 x3 x4 x5 _ _ _ _ _ _ _ _ _ _ _ _ _ _ _ _ _ _ _ _
    (View.ld_unit_zero (funext fun a => by match a with | ⟨0, _⟩ => rfl | ⟨1, _⟩ => rfl) _ x2)
    (View.ld_unit_zero (funext fun a => by match a with | ⟨0, _⟩ => rfl | ⟨1, _⟩ => rfl) _ x0)
    (View.ld_unit_zero (funext fun a => by match a with | ⟨0, _⟩ => rfl | ⟨1, _⟩ => rfl) _ x3)
    (View.ld_unit_zero (funext fun a => by match a with | ⟨0, _⟩ => rfl) _ x4)
    (ld_sum x1 0 _ (0 : Fin 8) rfl)
    (ld_map x5 0 _ (0 : Fin 8) rfl)
    (ld_sum x1 1 _ (1 : Fin 8) rfl)
    (ld_map x5 1 _ (1 : Fin 8) rfl)
    (ld_sum x1 2 _ (2 : Fin 8) rfl)
    (ld_map x5 2 _ (2 : Fin 8) rfl)
    (ld_sum x1 3 _ (3 : Fin 8) rfl)
    (ld_map x5 3 _ (3 : Fin 8) rfl)
    (ld_sum x1 4 _ (4 : Fin 8) rfl)
    (ld_map x5 4 _ (4 : Fin 8) rfl)
    (ld_sum x1 5 _ (5 : Fin 8) rfl)
    (ld_map x5 5 _ (5 : Fin 8) rfl)
    (ld_sum x1 6 _ (6 : Fin 8) rfl)
    (ld_map x5 6 _ (6 : Fin 8) rfl)
    (ld_sum x1 7 _ (7 : Fin 8) rfl)
    (ld_map x5 7 _ (7 : Fin 8) rfl)
    p q

end Cert.GraphConv.Ker

end
-- ==== Proof.KerNorm.lean ====
/-
  The kernel body's stored block is the layer normalisation, row by row, of its rectified value.
-/
import proofs.«413660_j81793357185090_2_alg».proof.Proof.KerX

noncomputable section

open scoped BigOperators

namespace Cert.GraphConv.Ker

open Idealize.ShloMosaic Idealize.ShloMosaic.TcCoe Idealize.ShloMosaic.ValueIdx Idealize.SL.Sem
open Cert.KernelIdeal Cert.KernelIdeal.Gen Cert.GraphConv

/-- A lane sum of a [2000 × 128] array at row `p`: the sum of the row's 128 entries. -/
private theorem laneSum (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v _ reduces_S2000x128_S2000 (.inl rfl) rfl (ix1 p)).trans ?_
  refine Finset.sum_congr rfl fun k _ => congrArg v ?_
  funext a
  apply Fin.ext
  match a with
  | ⟨0, _⟩ => rfl
  | ⟨1, _⟩ => rfl

/-- A column [2000] re-laid as [2000 × 1] and read at (p, 0) is the column at p. -/
private theorem colCast (w : FVec Ideal S2000 .f32) (p : Fin 2000) :
    shapeCast S2000x1 w shapeCasts_S2000_S2000x1 (ix2 p (0 : Fin 1)) = w (ix1 p) := by
  refine shapeCast_apply _ _ _ (ix1 p) ?_
  rw [Shape.rowMajor_val_one, Shape.rowMajor_val_two]
  show p.val = p.val * 1 + 0
  omega

/-- A [2000 × 1] column broadcast along the lanes and read at (p, k) is the column at (p, 0). -/
private theorem colBcast (w : FVec Ideal S2000x1 .f32) (p : Fin 2000) (k : Fin 128) :
    broadcastTo S2000x128 w broadcasts_S2000x1_S2000x128 (ix2 p k) = w (ix2 p (0 : Fin 1)) := by
  refine broadcastTo_apply _ _ _ (ix2 p (0 : Fin 1)) fun a => ?_
  match a with
  | ⟨0, _⟩ => show p.val = (if (2000 : Nat) = 1 then 0 else p.val); rw [if_neg (by decide)]
  | ⟨1, _⟩ => show 0 = (if (1 : Nat) = 1 then 0 else k.val); rw [if_pos rfl]

/-- The row mean subtracted from the array, read at (p, k). -/
private theorem centred (X : FVec Ideal S2000x128 .f32) (p : Fin 2000) (k : Fin 128) :
    subf X (broadcastTo S2000x128 (divf (shapeCast S2000x1 (multiReduction (F := Ideal) .add [1] S2000 X 0x00000000#32
        reduces_S2000x128_S2000 (.inl rfl) rfl) shapeCasts_S2000_S2000x1)
        (broadcast S2000x1 (Scalar.ofBits (F := Ideal) .f32 0x43000000#32))) broadcasts_S2000x1_S2000x128) (ix2 p k)
      = X (ix2 p k) - Ideal.div (∑ k' : Fin 128, X (ix2 p k')) c128 := by
  rw [subf_apply, colBcast, divf_apply, colCast, laneSum, broadcast_apply]
  rfl

/-- The lane sum of the squared centred array at row `p`. -/
private theorem sqSum (X : FVec Ideal S2000x128 .f32) (p : Fin 2000) :
    multiReduction (F := Ideal) .add [1] S2000
        (mulf
          (subf X (broadcastTo S2000x128 (divf (shapeCast S2000x1 (multiReduction (F := Ideal) .add [1] S2000 X 0x00000000#32
            reduces_S2000x128_S2000 (.inl rfl) rfl) shapeCasts_S2000_S2000x1)
            (broadcast S2000x1 (Scalar.ofBits (F := Ideal) .f32 0x43000000#32))) broadcasts_S2000x1_S2000x128))
          (subf X (broadcastTo S2000x128 (divf (shapeCast S2000x1 (multiReduction (F := Ideal) .add [1] S2000 X 0x00000000#32
            reduces_S2000x128_S2000 (.inl rfl) rfl) shapeCasts_S2000_S2000x1)
            (broadcast S2000x1 (Scalar.ofBits (F := Ideal) .f32 0x43000000#32))) broadcasts_S2000x1_S2000x128)))
        0x00000000#32 reduces_S2000x128_S2000 (.inl rfl) rfl (ix1 p)
      = ∑ k : Fin 128, (X (ix2 p k) - Ideal.div (∑ k' : Fin 128, X (ix2 p k')) c128)
          * (X (ix2 p k) - Ideal.div (∑ k' : Fin 128, X (ix2 p k')) c128) := by
  rw [laneSum]
  refine Finset.sum_congr rfl fun k _ => ?_
  rw [mulf_apply, centred]

/-- The normalisation over an arbitrary [2000 × 128] array `X`, with the generated reading indices. -/
private theorem norm_core (X : FVec Ideal S2000x128 .f32) (g b : FVec Ideal S128 .f32) (y : S2000x128.Idx) :
    FloatOps.addf (FloatOps.mulf (FloatOps.mulf (FloatOps.subf (X (Cert.KernelIdeal.Value.ix8_0 y))
        (FloatOps.divf (multiReduction (F := Ideal) .add [1] S2000 X 0x00000000#32 reduces_S2000x128_S2000 (.inl rfl) rfl
          (Cert.KernelIdeal.Value.ix8_1 y)) (Scalar.ofBits (F := Ideal) .f32 0x43000000#32)))
        (FloatOps.rsqrt (FloatOps.addf (FloatOps.divf
          (multiReduction (F := Ideal) .add [1] S2000
            (mulf
              (subf X (broadcastTo S2000x128 (divf (shapeCast S2000x1 (multiReduction (F := Ideal) .add [1] S2000 X 0x00000000#32
                reduces_S2000x128_S2000 (.inl rfl) rfl) shapeCasts_S2000_S2000x1)
                (broadcast S2000x1 (Scalar.ofBits (F := Ideal) .f32 0x43000000#32))) broadcasts_S2000x1_S2000x128))
              (subf X (broadcastTo S2000x128 (divf (shapeCast S2000x1 (multiReduction (F := Ideal) .add [1] S2000 X 0x00000000#32
                reduces_S2000x128_S2000 (.inl rfl) rfl) shapeCasts_S2000_S2000x1)
                (broadcast S2000x1 (Scalar.ofBits (F := Ideal) .f32 0x43000000#32))) broadcasts_S2000x1_S2000x128)))
            0x00000000#32 reduces_S2000x128_S2000 (.inl rfl) rfl (Cert.KernelIdeal.Value.ix8_2 y))
          ((k0_pay10 (F := Ideal)) (Cert.KernelIdeal.Value.ix8_3 y)))
          (Scalar.ofBits (F := Ideal) .f32 0x3727C5AC#32))))
        (g (Cert.KernelIdeal.Value.ix8_4 y))) (b (Cert.KernelIdeal.Value.ix8_5 y))
      = normRow (fun q => X (ix2 (⟨(y 0).val, (y 0).isLt⟩ : Fin 2000) q))
          (g (ix1 (⟨(y 1).val, (y 1).isLt⟩ : Fin 128))) (b (ix1 (⟨(y 1).val, (y 1).isLt⟩ : Fin 128)))
          ⟨(y 1).val, (y 1).isLt⟩ := by
  have h0 : Cert.KernelIdeal.Value.ix8_0 y
      = ix2 (⟨(y 0).val, (y 0).isLt⟩ : Fin 2000) (⟨(y 1).val, (y 1).isLt⟩ : Fin 128) := by
    funext a; apply Fin.ext
    match a with
    | ⟨0, _⟩ => rfl
    | ⟨1, _⟩ => rfl
  have h1 : Cert.KernelIdeal.Value.ix8_1 y = ix1 (⟨(y 0).val, (y 0).isLt⟩ : Fin 2000) := by
    funext a; apply Fin.ext
    match a with
    | ⟨0, _⟩ => rfl
  have h2 : Cert.KernelIdeal.Value.ix8_2 y = ix1 (⟨(y 0).val, (y 0).isLt⟩ : Fin 2000) := by
    funext a; apply Fin.ext
    match a with
    | ⟨0, _⟩ => rfl
  have h4 : Cert.KernelIdeal.Value.ix8_4 y = ix1 (⟨(y 1).val, (y 1).isLt⟩ : Fin 128) := by
    funext a; apply Fin.ext
    match a with
    | ⟨0, _⟩ => rfl
  have h5 : Cert.KernelIdeal.Value.ix8_5 y = ix1 (⟨(y 1).val, (y 1).isLt⟩ : Fin 128) := by
    funext a; apply Fin.ext
    match a with
    | ⟨0, _⟩ => rfl
  have h3 : (k0_pay10 (F := Ideal)) (Cert.KernelIdeal.Value.ix8_3 y) = c128 := rfl
  rw [h0, h1, h2, h3, h4, h5, sqSum, laneSum]
  rfl

/-- The generated index-by-index form of the stored block is the normalisation of the rectified value's row. -/
theorem E8_norm (P0 : Vec Ideal S2000x8 .f32) (P1 : Vec Ideal S2000x128 .f32) (P2 : Vec Ideal S128x128 .f32) (P3 : Vec Ideal S128 .f32) (P4 : Vec Ideal S2000x1x128 .f32) (P5 : Vec Ideal S1x128x128 .f32) (P6 : Vec Ideal S2000x1x128 .f32) (P7 : Vec Ideal S1x128x128 .f32) (P8 : Vec Ideal S2000x1x128 .f32) (P9 : Vec Ideal S1x128x128 .f32) (P10 : Vec Ideal S2000x1x128 .f32) (P11 : Vec Ideal S1x128x128 .f32) (P12 : Vec Ideal S2000x1x128 .f32) (P13 : Vec Ideal S1x128x128 .f32) (P14 : Vec Ideal S2000x1x128 .f32) (P15 : Vec Ideal S1x128x128 .f32) (P16 : Vec Ideal S2000x1x128 .f32) (P17 : Vec Ideal S1x128x128 .f32) (P18 : Vec Ideal S2000x1x128 .f32) (P19 : Vec Ideal S1x128x128 .f32) (P20 : Vec Ideal S128 .f32) (P21 : Vec Ideal S128 .f32) (y : S2000x128.Idx) :
    Cert.KernelIdeal.Value.E8 (F := Ideal) P0 P1 P2 P3 P4 P5 P6 P7 P8 P9 P10 P11 P12 P13 P14 P15 P16 P17 P18 P19 P20 P21 y
      = normRow (fun q => Xof P0 P1 P2 P3 P4 P5 P6 P7 P8 P9 P10 P11 P12 P13 P14 P15 P16 P17 P18 P19 (ix2 (⟨(y 0).val, (y 0).isLt⟩ : Fin 2000) q))
          (P20 (ix1 (⟨(y 1).val, (y 1).isLt⟩ : Fin 128))) (P21 (ix1 (⟨(y 1).val, (y 1).isLt⟩ : Fin 128)))
          ⟨(y 1).val, (y 1).isLt⟩ :=
  norm_core (Xof P0 P1 P2 P3 P4 P5 P6 P7 P8 P9 P10 P11 P12 P13 P14 P15 P16 P17 P18 P19) P20 P21 y

end Cert.GraphConv.Ker

end
-- ==== Proof.KerValue.lean ====
/-
  The kernel's result array. Each of the fifty grid points stores, for its 2000 nodes, the layer's result computed
  from the blocks of the arrays the region finds; those blocks are the specification's terms at the block's nodes, so
  point `t` writes back block `t` of the specification's array (sum-first arrangement), and the fifty blocks tile it.
-/
import proofs.«413660_j81793357185090_2_alg».proof.Proof.KerHost
import proofs.«413660_j81793357185090_2_alg».proof.Proof.KerNorm

noncomputable section

open scoped BigOperators

namespace Cert.GraphConv.Ker

open Idealize.ShloMosaic Idealize.ShloMosaic.TcCoe Idealize.ShloMosaic.ValueIdx Idealize.SL.Sem
open Cert.KernelIdeal Cert.KernelIdeal.Gen Cert.GraphConv
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl

/-! ## One block: the body's stored block is the specification's block function of the input blocks -/

theorem out0_8_eq (x0 : Vec Ideal S2000x128 .f32) (x1 : Vec Ideal S2000x8x128 .f32) (x2 : Vec Ideal S2000x8 .f32)
    (x3 : Vec Ideal S128x128 .f32) (x4 : Vec Ideal S128 .f32) (x5 : Vec Ideal S8x128x128 .f32)
    (x6 x7 : Vec Ideal S128 .f32) :
    out0_8 x0 x1 x2 x3 x4 x5 x6 x7 = blkOut x0 x1 x2 x3 x4 x5 x6 x7 := by
  funext y
  unfold out0_8
  rw [Cert.KernelIdeal.Value.canon8_eq, E8_norm]
  unfold blkOut
  have e6 : View.ld x6 r0_2 = x6 := View.ld_unit_zero hz1 _ x6
  have e7 : View.ld x7 r0_2 = x7 := View.ld_unit_zero hz1 _ x7
  rw [e6, e7]
  simp only [X_apply]

/-! ## The transposed maps the region finds -/

theorem V_wsT (c : Dev nD) (k j : Fin 128) :
    (V m c main_v21 : S128x128.Idx → EReal) (ix2 k j) = (argsK m c).ws (ix2 j k) := by
  have e : (V m c main_v21 : S128x128.Idx → EReal)
      = transpose S128x128 [1, 0] (m ((c.tc : Thread nD τ).loc main_arg3)) transposes_S128x128_S128x128_1_0 := by
    dsimp only [Gen.V]
    simp only [hostOps0, hostOps0_1, hostOps0_2, List.flatten_cons, List.flatten_nil, List.append_nil,
      List.cons_append, List.nil_append]
    after_results
  rw [e]
  exact transpose_apply [1, 0] _ transposes_S128x128_S128x128_1_0 (ix2 k j) (ix2 j k)
    (fun b => match b with | ⟨0, _⟩ => rfl | ⟨1, _⟩ => rfl)

theorem V_wrT (c : Dev nD) (r : Fin 8) (k j : Fin 128) :
    (V m c main_v22 : S8x128x128.Idx → EReal) (ix3 r k j) = (argsK m c).wr (ix3 r j k) := by
  have e : (V m c main_v22 : S8x128x128.Idx → EReal)
      = transpose S8x128x128 [0, 2, 1] (m ((c.tc : Thread nD τ).loc main_arg5))
          transposes_S8x128x128_S8x128x128_0_2_1 := by
    dsimp only [Gen.V]
    simp only [hostOps0, hostOps0_1, hostOps0_2, List.flatten_cons, List.flatten_nil, List.append_nil,
      List.cons_append, List.nil_append]
    after_results
  rw [e]
  exact transpose_apply [0, 2, 1] _ transposes_S8x128x128_S8x128x128_0_2_1 (ix3 r k j) (ix3 r j k)
    (fun b => match b with | ⟨0, _⟩ => rfl | ⟨1, _⟩ => rfl | ⟨2, _⟩ => rfl)

/-! ## The index maps, decided over the fifty grid points -/

theorem N_eq : cfg0.N = 50 := by decide

/-- The windows over node-indexed arrays move with the grid point along their first axis; the others stay put. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 1) = 0
    ∧ win0_7.index t (0 : Fin 1) = 0
    ∧ win0_8.index t (0 : Fin 2) = t.val ∧ win0_8.index t (1 : Fin 2) = 0 :=
  (by decide +kernel : ∀ t : Fin grid0.N, _)

/-- Row `p` of grid point `t`'s block is node 2000·t + p. -/
def nodeAt (t : Fin cfg0.N) (p : Fin 2000) : Fin 100000 :=
  ⟨t.val * 2000 + p.val, by have ht : t.val < 50 := N_eq ▸ t.isLt; have := p.isLt; omega⟩

/-! ## The input blocks at a point, named at their literal types, and read at an index -/

abbrev blk0 (c : Dev nD) (t : Fin cfg0.N) : Vec Ideal S2000x128 .f32 := iblk m c 0 t
abbrev blk1 (c : Dev nD) (t : Fin cfg0.N) : Vec Ideal S2000x8x128 .f32 := iblk m c 1 t
abbrev blk2 (c : Dev nD) (t : Fin cfg0.N) : Vec Ideal S2000x8 .f32 := iblk m c 2 t
abbrev blk3 (c : Dev nD) (t : Fin cfg0.N) : Vec Ideal S128x128 .f32 := iblk m c 3 t
abbrev blk4 (c : Dev nD) (t : Fin cfg0.N) : Vec Ideal S128 .f32 := iblk m c 4 t
abbrev blk5 (c : Dev nD) (t : Fin cfg0.N) : Vec Ideal S8x128x128 .f32 := iblk m c 5 t
abbrev blk6 (c : Dev nD) (t : Fin cfg0.N) : Vec Ideal S128 .f32 := iblk m c 6 t
abbrev blk7 (c : Dev nD) (t : Fin cfg0.N) : Vec Ideal S128 .f32 := iblk m c 7 t

/-- Each block is its window's view of the array the region finds (the whole block at once). -/
theorem blk0_eq (c : Dev nD) (t : Fin cfg0.N) :
    blk0 m c t = ((cfg0.win 0).blk t).view.read (Elt Ideal) (V m c main_arg0 : S100000x128.Idx → EReal) := rfl
theorem blk1_eq (c : Dev nD) (t : Fin cfg0.N) :
    blk1 m c t = ((cfg0.win 1).blk t).view.read (Elt Ideal) (V m c main_v15 : S100000x8x128.Idx → EReal) := rfl
theorem blk2_eq (c : Dev nD) (t : Fin cfg0.N) :
    blk2 m c t = ((cfg0.win 2).blk t).view.read (Elt Ideal) (V m c main_v20 : S100000x8.Idx → EReal) := rfl
theorem blk3_eq (c : Dev nD) (t : Fin cfg0.N) :
    blk3 m c t = ((cfg0.win 3).blk t).view.read (Elt Ideal) (V m c main_v21 : S128x128.Idx → EReal) := rfl
theorem blk4_eq (c : Dev nD) (t : Fin cfg0.N) :
    blk4 m c t = ((cfg0.win 4).blk t).view.read (Elt Ideal) (V m c main_arg4 : S128.Idx → EReal) := rfl
theorem blk5_eq (c : Dev nD) (t : Fin cfg0.N) :
    blk5 m c t = ((cfg0.win 5).blk t).view.read (Elt Ideal) (V m c main_v22 : S8x128x128.Idx → EReal) := rfl
theorem blk6_eq (c : Dev nD) (t : Fin cfg0.N) :
    blk6 m c t = ((cfg0.win 6).blk t).view.read (Elt Ideal) (V m c main_arg6 : S128.Idx → EReal) := rfl
theorem blk7_eq (c : Dev nD) (t : Fin cfg0.N) :
    blk7 m c t = ((cfg0.win 7).blk t).view.read (Elt Ideal) (V m c main_arg7 : S128.Idx → EReal) := rfl

/-- A window's view of ANY array reads the array at the block index's place in it. -/
theorem read0 (t : Fin cfg0.N) (f : S100000x128.Idx → EReal) (y : S2000x128.Idx) :
    ((cfg0.win 0).blk t).view.read (Elt Ideal) f y = f (((cfg0.win 0).blk t).view.emb y) := rfl
theorem read1 (t : Fin cfg0.N) (f : S100000x8x128.Idx → EReal) (y : S2000x8x128.Idx) :
    ((cfg0.win 1).blk t).view.read (Elt Ideal) f y = f (((cfg0.win 1).blk t).view.emb y) := rfl
theorem read2 (t : Fin cfg0.N) (f : S100000x8.Idx → EReal) (y : S2000x8.Idx) :
    ((cfg0.win 2).blk t).view.read (Elt Ideal) f y = f (((cfg0.win 2).blk t).view.emb y) := rfl
theorem read3 (t : Fin cfg0.N) (f : S128x128.Idx → EReal) (y : S128x128.Idx) :
    ((cfg0.win 3).blk t).view.read (Elt Ideal) f y = f (((cfg0.win 3).blk t).view.emb y) := rfl
theorem read4 (t : Fin cfg0.N) (f : S128.Idx → EReal) (y : S128.Idx) :
    ((cfg0.win 4).blk t).view.read (Elt Ideal) f y = f (((cfg0.win 4).blk t).view.emb y) := rfl
theorem read5 (t : Fin cfg0.N) (f : S8x128x128.Idx → EReal) (y : S8x128x128.Idx) :
    ((cfg0.win 5).blk t).view.read (Elt Ideal) f y = f (((cfg0.win 5).blk t).view.emb y) := rfl
theorem read6 (t : Fin cfg0.N) (f : S128.Idx → EReal) (y : S128.Idx) :
    ((cfg0.win 6).blk t).view.read (Elt Ideal) f y = f (((cfg0.win 6).blk t).view.emb y) := rfl
theorem read7 (t : Fin cfg0.N) (f : S128.Idx → EReal) (y : S128.Idx) :
    ((cfg0.win 7).blk t).view.read (Elt Ideal) f y = f (((cfg0.win 7).blk t).view.emb y) := rfl

theorem blk0_apply (c : Dev nD) (t : Fin cfg0.N) (p : Fin 2000) (k : Fin 128) :
    blk0 m c t (ix2 p k) = (argsK m c).h (ix2 (nodeAt t p) k) := by
  obtain ⟨e0, e1, -⟩ := idx_facts t
  rw [blk0_eq m c t, read0]
  rw [V_main_arg0]
  show m ((c.tc : Thread nD τ).loc main_arg0) _ = m ((c.tc : Thread nD τ).loc main_arg0) _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk1_apply (c : Dev nD) (hy : Hyps (argsK m c)) (t : Fin cfg0.N) (p : Fin 2000) (r : Fin 8) (k : Fin 128) :
    blk1 m c t (ix3 p r k) = ∑ e ∈ edges (argsK m c) (nodeAt t p) r, feat (argsK m c) e k := by
  obtain ⟨-, -, e0, e1, e2, -⟩ := idx_facts t
  rw [← V_sum m c hy (nodeAt t p) r k]
  rw [blk1_eq m c t, read1]
  refine congrArg _ (funext fun a => Fin.ext ?_)
  match a with
  | ⟨0, _⟩ => show win0_1.index t (0 : Fin 3) * 2000 + 1 * p.val = t.val * 2000 + p.val; omega
  | ⟨1, _⟩ => show win0_1.index t (1 : Fin 3) * 8 + 1 * r.val = r.val; omega
  | ⟨2, _⟩ => show win0_1.index t (2 : Fin 3) * 128 + 1 * k.val = k.val; omega

theorem blk2_apply (c : Dev nD) (hy : Hyps (argsK m c)) (t : Fin cfg0.N) (p : Fin 2000) (r : Fin 8) :
    blk2 m c t (ix2 p r) = Ideal.div oneF (max (∑ _e ∈ edges (argsK m c) (nodeAt t p) r, oneF) oneF) := by
  obtain ⟨-, -, -, -, -, e0, e1, -⟩ := idx_facts t
  rw [← V_inv m c hy (nodeAt t p) r]
  rw [blk2_eq m c t, read2]
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 8 + 1 * r.val = r.val; omega

theorem blk3_apply (c : Dev nD) (t : Fin cfg0.N) (k q : Fin 128) :
    blk3 m c t (ix2 k q) = (argsK m c).ws (ix2 q k) := by
  obtain ⟨-, -, -, -, -, -, -, e0, e1, -⟩ := idx_facts t
  rw [← V_wsT m c k q]
  rw [blk3_eq m c t, read3]
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem blk4_apply (c : Dev nD) (t : Fin cfg0.N) (q : Fin 128) :
    blk4 m c t (ix1 q) = (argsK m c).bs (ix1 q) := by
  obtain ⟨-, -, -, -, -, -, -, -, -, e0, -⟩ := idx_facts t
  rw [blk4_eq m c t, read4]
  rw [V_main_arg4]
  show m ((c.tc : Thread nD τ).loc main_arg4) _ = m ((c.tc : Thread nD τ).loc main_arg4) _
  refine congrArg _ (funext fun a => Fin.ext ?_)
  match a with
  | ⟨0, _⟩ => show win0_4.index t (0 : Fin 1) * 128 + 1 * q.val = q.val; omega

theorem blk5_apply (c : Dev nD) (t : Fin cfg0.N) (r : Fin 8) (k q : Fin 128) :
    blk5 m c t (ix3 r k q) = (argsK m c).wr (ix3 r q k) := by
  obtain ⟨-, -, -, -, -, -, -, -, -, -, e0, e1, e2, -⟩ := idx_facts t
  rw [← V_wrT m c r k q]
  rw [blk5_eq m c t, read5]
  refine congrArg _ (funext fun a => Fin.ext ?_)
  match a with
  | ⟨0, _⟩ => show win0_5.index t (0 : Fin 3) * 8 + 1 * r.val = r.val; omega
  | ⟨1, _⟩ => show win0_5.index t (1 : Fin 3) * 128 + 1 * k.val = k.val; omega
  | ⟨2, _⟩ => show win0_5.index t (2 : Fin 3) * 128 + 1 * q.val = q.val; omega

theorem blk6_apply (c : Dev nD) (t : Fin cfg0.N) (q : Fin 128) :
    blk6 m c t (ix1 q) = (argsK m c).gam (ix1 q) := by
  obtain ⟨-, -, -, -, -, -, -, -, -, -, -, -, -, e0, -⟩ := idx_facts t
  rw [blk6_eq m c t, read6]
  rw [V_main_arg6]
  show m ((c.tc : Thread nD τ).loc main_arg6) _ = m ((c.tc : Thread nD τ).loc main_arg6) _
  refine congrArg _ (funext fun a => Fin.ext ?_)
  match a with
  | ⟨0, _⟩ => show win0_6.index t (0 : Fin 1) * 128 + 1 * q.val = q.val; omega

theorem blk7_apply (c : Dev nD) (t : Fin cfg0.N) (q : Fin 128) :
    blk7 m c t (ix1 q) = (argsK m c).bet (ix1 q) := by
  obtain ⟨-, -, -, -, -, -, -, -, -, -, -, -, -, -, e0, -⟩ := idx_facts t
  rw [blk7_eq m c t, read7]
  rw [V_main_arg7]
  show m ((c.tc : Thread nD τ).loc main_arg7) _ = m ((c.tc : Thread nD τ).loc main_arg7) _
  refine congrArg _ (funext fun a => Fin.ext ?_)
  match a with
  | ⟨0, _⟩ => show win0_7.index t (0 : Fin 1) * 128 + 1 * q.val = q.val; omega

/-! ## A block's pre-activation is the specification's at the block's nodes -/

/-- Over arrays that hold, at a block's rows, the specification's terms of the rows' nodes, the block's
    pre-activation is the specification's pre-activation (sum-first arrangement) of those nodes. -/
theorem blkPre_of (a : Args) (nd : Fin 2000 → Fin 100000) (x0 : SBxD.Idx → EReal) (x1 : SBxRxD.Idx → EReal)
    (x2 : SBxR.Idx → EReal) (x3 : SDxD.Idx → EReal) (x4 : SD.Idx → EReal) (x5 : SRxDxD.Idx → EReal)
    (h0 : ∀ (p : Fin 2000) (k : Fin 128), x0 (ix2 p k) = a.h (ix2 (nd p) k))
    (h1 : ∀ (p : Fin 2000) (r : Fin 8) (k : Fin 128), x1 (ix3 p r k) = ∑ e ∈ edges a (nd p) r, feat a e k)
    (h2 : ∀ (p : Fin 2000) (r : Fin 8),
      x2 (ix2 p r) = Ideal.div oneF (max (∑ _e ∈ edges a (nd p) r, oneF) oneF))
    (h3 : ∀ k q : Fin 128, x3 (ix2 k q) = a.ws (ix2 q k)) (h4 : ∀ q : Fin 128, x4 (ix1 q) = a.bs (ix1 q))
    (h5 : ∀ (r : Fin 8) (k q : Fin 128), x5 (ix3 r k q) = a.wr (ix3 r q k)) (p : Fin 2000) (q : Fin 128) :
    blkPre x0 x1 x2 x3 x4 x5 p q = pre a (relSum a) (nd p) q := by
  unfold blkPre blkRel pre selfTerm relSum
  simp only [h0, h1, h2, h3, h4, h5]

/-! ## What a point writes back, the cover, the array, the run -/

/-- The output block's index `y` at point `t` is array index (2000·t + y₀, y₁). -/
theorem out_emb (t : Fin cfg0.N) (y : S2000x128.Idx) :
    ((cfg0.win 8).blk t).view.emb y
      = ix2 (nodeAt t ⟨(y 0).val, (y 0).isLt⟩) (⟨(y 1).val, (y 1).isLt⟩ : Fin 128) := by
  obtain ⟨-, -, -, -, -, -, -, -, -, -, -, -, -, -, -, e0, e1⟩ := idx_facts t
  funext a; apply Fin.ext
  match a with
  | ⟨0, _⟩ => show win0_8.index t (0 : Fin 2) * 2000 + 1 * (y 0).val = t.val * 2000 + (y 0).val; omega
  | ⟨1, _⟩ => show win0_8.index t (1 : Fin 2) * 128 + 1 * (y 1).val = (y 1).val; omega

/-- Point `t` writes back block `t` of the specification's array. -/
theorem flushed_eq (c : Dev nD) (hy : Hyps (argsK m c)) (t : Fin cfg0.N) :
    (dats m 0 c).flushed 8 t
      = ((cfg0.win 8).blk t).view.read (Elt Ideal) (outArr (argsK m c) (relSum (argsK m c))) := by
  rw [Cert.KernelIdeal.Value.flushed8]
  refine (congrArg ((cfg0.win 8).cut (grid0.coords t)) (out0_8_eq (blk0 m c t) (blk1 m c t) (blk2 m c t)
    (blk3 m c t) (blk4 m c t) (blk5 m c t) (blk6 m c t) (blk7 m c t))).trans ?_
  funext y
  show blkOut (blk0 m c t) (blk1 m c t) (blk2 m c t) (blk3 m c t) (blk4 m c t) (blk5 m c t) (blk6 m c t)
      (blk7 m c t) y = outArr (argsK m c) (relSum (argsK m c)) (((cfg0.win 8).blk t).view.emb y)
  rw [out_emb, outArr_ix2]
  unfold blkOut outAt
  rw [blk6_apply, blk7_apply]
  have hrow : (fun q : Fin 128 => max (blkPre (blk0 m c t) (blk1 m c t) (blk2 m c t) (blk3 m c t) (blk4 m c t)
        (blk5 m c t) (⟨(y 0).val, (y 0).isLt⟩ : Fin 2000) q) (0 : EReal))
      = fun q : Fin 128 => max (pre (argsK m c) (relSum (argsK m c))
          (nodeAt t (⟨(y 0).val, (y 0).isLt⟩ : Fin 2000)) q) (0 : EReal) :=
    funext fun q => congrArg (fun v : EReal => max v 0)
      (blkPre_of (argsK m c) (nodeAt t) (blk0 m c t) (blk1 m c t) (blk2 m c t) (blk3 m c t) (blk4 m c t)
        (blk5 m c t) (fun p k => blk0_apply m c t p k) (fun p r k => blk1_apply m c hy t p r k)
        (fun p r => blk2_apply m c hy t p r) (fun k q => blk3_apply m c t k q) (fun q => blk4_apply m c t q)
        (fun r k q => blk5_apply m c t r k q) ⟨(y 0).val, (y 0).isLt⟩ q)
  rw [hrow]

/-- An index of the array is in point `t`'s block iff each coordinate is in the block's range on its axis. -/
theorem mem_blk8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v23).slice (win0_8.rect t)).set ↔ _
  rw [View.set_slice_whole, Rect.mem_set_unit]
  exact Iff.rfl

/-- The fifty blocks tile the array: node `n` is in point ⌊n / 2000⌋'s block. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  let t : Fin cfg0.N := ⟨(i 0).val / 2000, by rw [N_eq]; omega⟩
  obtain ⟨-, -, -, -, -, -, -, -, -, -, -, -, -, -, -, e0, e1⟩ := idx_facts t
  have ht : t.val = (i 0).val / 2000 := rfl
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 128 ≤ (i 1).val ∧ (i 1).val < win0_8.index t (1 : Fin 2) * 128 + 128
    omega

/-- The result array after the run is the specification's array of the program's arguments. -/
theorem final (c : Dev nD) (hy : Hyps (argsK m c)) :
    (dats m 0 c).arrAt 8 cfg0.N = outArr (argsK m c) (relSum (argsK m c)) :=
  (dats m 0 c).arrAt_eq_of_cover 8 _ (fun t _ => flushed_eq m c hy t) cover8

/-- The kernel's run: the result at the specification's array, the arguments unchanged. -/
theorem run (hy : ∀ c : Dev nD, Hyps (argsK m c)) :
    θ_run defs (onTc (τ := τ) (main (F := Ideal))) ⟨m, fun _ => 0, ρ⟩ fun r => ∀ c : Dev nD,
      r.2.mem ((c : Thread nD τ).loc main_v23) = outArr (argsK m c) (relSum (argsK m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hy c)), (h c).2⟩)
    (Cert.KernelIdeal.Value.run_blocks m ρ)

end Cert.GraphConv.Ker

end
-- ==== Proof.RefNorm.lean ====
/-
  The reference's result is the layer normalisation, row by row, of the rectifier of its pre-activation, which is its
  self term plus its eight relation terms added one after the other.
-/
import proofs.«413660_j81793357185090_2_alg».proof.Proof.Gen.ReferenceIdeal.Read
import proofs.«413660_j81793357185090_2_alg».proof.Proof.Spec

noncomputable section

open scoped BigOperators

namespace Cert.GraphConv.Ref

open Idealize.ShloMosaic Idealize.ShloMosaic.TcCoe Idealize.ShloMosaic.ValueIdx Idealize.SL.Sem
open Cert.ReferenceIdeal Cert.ReferenceIdeal.Gen Cert.ReferenceIdeal.Read Cert.GraphConv

/-- The rectifier is the maximum with the broadcast zero. -/
private theorem relu_at (a : Args) (i : SNxD.Idx) :
    val_main_v192 (F := Ideal) a.h a.ei a.et a.ws a.bs a.wr i = max (val_main_v191 (F := Ideal) a.h a.ei a.et a.ws a.bs a.wr i) 0 := by
  rw [val_main_v192_apply, val_main_call0_v0_apply, val_main_call0_cst_apply, Ideal.maximumf_def, Ideal.ofBits_def,
    Ideal.ofBits_zero_f32]

/-- The row sum of the rectified value. -/
private theorem sum_at (a : Args) (n : Fin 100000) :
    val_main_v193 (F := Ideal) a.h a.ei a.et a.ws a.bs a.wr (ix1 n) = ∑ k : Fin 128, val_main_v192 (F := Ideal) a.h a.ei a.et a.ws a.bs a.wr (ix2 n k) := by
  rw [val_main_v193_apply, val_main_cst_32_apply, Ideal.ofBits_def, Ideal.ofBits_zero_f32, zero_add]
  refine Finset.sum_congr rfl fun k _ => congrArg _ ?_
  exact funext fun d => Fin.ext (by match d with | ⟨0, _⟩ => rfl | ⟨1, _⟩ => rfl)

/-- The row mean, kept as a [100000 × 1] column. -/
private theorem mean_at (a : Args) (n : Fin 100000) :
    val_main_v196 (F := Ideal) a.h a.ei a.et a.ws a.bs a.wr (ix2 n (0 : Fin 1)) = Ideal.div (∑ k' : Fin 128, val_main_v192 (F := Ideal) a.h a.ei a.et a.ws a.bs a.wr (ix2 n k')) c128 := by
  rw [val_main_v196_apply, val_main_v194_apply, val_main_v195_apply, val_main_cst_33_apply, Ideal.hostDivf_def,
    Ideal.ofBits_def, show idx_main_v194 (ix2 n (0 : Fin 1)) = ix1 n from funext fun d => Fin.ext (by match d with | ⟨0, _⟩ => rfl), sum_at]

/-- The rectified value minus its row mean (the copy that is squared). -/
private theorem centred_at (a : Args) (n : Fin 100000) (k : Fin 128) :
    val_main_v198 (F := Ideal) a.h a.ei a.et a.ws a.bs a.wr (ix2 n k) = val_main_v192 (F := Ideal) a.h a.ei a.et a.ws a.bs a.wr (ix2 n k) - Ideal.div (∑ k' : Fin 128, val_main_v192 (F := Ideal) a.h a.ei a.et a.ws a.bs a.wr (ix2 n k')) c128 := by
  rw [val_main_v198_apply, val_main_v197_apply, Ideal.subf_def,
    show idx_main_v197 (ix2 n k) = ix2 n (0 : Fin 1) from funext fun d => Fin.ext (by match d with | ⟨0, _⟩ => rfl | ⟨1, _⟩ => rfl), mean_at]

/-- The rectified value minus its row mean (the copy that is scaled). -/
private theorem centred'_at (a : Args) (n : Fin 100000) (k : Fin 128) :
    val_main_v205 (F := Ideal) a.h a.ei a.et a.ws a.bs a.wr (ix2 n k) = val_main_v192 (F := Ideal) a.h a.ei a.et a.ws a.bs a.wr (ix2 n k) - Ideal.div (∑ k' : Fin 128, val_main_v192 (F := Ideal) a.h a.ei a.et a.ws a.bs a.wr (ix2 n k')) c128 := by
  rw [val_main_v205_apply, val_main_v204_apply, Ideal.subf_def,
    show idx_main_v204 (ix2 n k) = ix2 n (0 : Fin 1) from funext fun d => Fin.ext (by match d with | ⟨0, _⟩ => rfl | ⟨1, _⟩ => rfl), mean_at]

/-- The row sum of the squared centred value. -/
private theorem sq_at (a : Args) (n : Fin 100000) :
    val_main_v200 (F := Ideal) a.h a.ei a.et a.ws a.bs a.wr (ix1 n) = ∑ k : Fin 128, (val_main_v192 (F := Ideal) a.h a.ei a.et a.ws a.bs a.wr (ix2 n k) - Ideal.div (∑ k' : Fin 128, val_main_v192 (F := Ideal) a.h a.ei a.et a.ws a.bs a.wr (ix2 n k')) c128) * (val_main_v192 (F := Ideal) a.h a.ei a.et a.ws a.bs a.wr (ix2 n k) - Ideal.div (∑ k' : Fin 128, val_main_v192 (F := Ideal) a.h a.ei a.et a.ws a.bs a.wr (ix2 n k')) c128) := by
  rw [val_main_v200_apply, val_main_cst_34_apply, Ideal.ofBits_def, Ideal.ofBits_zero_f32, zero_add]
  refine Finset.sum_congr rfl fun k _ => ?_
  rw [show idx_main_v200 (ix1 n) k = ix2 n k from funext fun d => Fin.ext (by match d with | ⟨0, _⟩ => rfl | ⟨1, _⟩ => rfl), val_main_v199_apply, Ideal.mulf_def, centred_at]

/-- The reciprocal square root of the row variance plus ε, kept as a column. -/
private theorem rs_at (a : Args) (n : Fin 100000) :
    val_main_v208 (F := Ideal) a.h a.ei a.et a.ws a.bs a.wr (ix2 n (0 : Fin 1)) = Ideal.rsqrt (Ideal.div (∑ k : Fin 128, (val_main_v192 (F := Ideal) a.h a.ei a.et a.ws a.bs a.wr (ix2 n k) - Ideal.div (∑ k' : Fin 128, val_main_v192 (F := Ideal) a.h a.ei a.et a.ws a.bs a.wr (ix2 n k')) c128) * (val_main_v192 (F := Ideal) a.h a.ei a.et a.ws a.bs a.wr (ix2 n k) - Ideal.div (∑ k' : Fin 128, val_main_v192 (F := Ideal) a.h a.ei a.et a.ws a.bs a.wr (ix2 n k')) c128)) c128 + epsF) := by
  rw [val_main_v208_apply, val_main_v207_apply, val_main_v203_apply, val_main_v201_apply, val_main_v202_apply,
    val_main_v206_apply, val_main_cst_35_apply, val_main_cst_36_apply, Ideal.hostUnary_rsqrt_def, Ideal.addf_def,
    Ideal.hostDivf_def, Ideal.ofBits_def, Ideal.ofBits_def,
    show idx_main_v201 (ix2 n (0 : Fin 1)) = ix1 n from funext fun d => Fin.ext (by match d with | ⟨0, _⟩ => rfl), sq_at]

/-- The reference's result at (n, j): the normalisation of the rectified pre-activation's row `n`. -/
theorem ref_norm (a : Args) (n : Fin 100000) (j : Fin 128) :
    val_main_v216 (F := Ideal) a.h a.ei a.et a.ws a.bs a.wr a.gam a.bet (ix2 n j)
      = normRow (fun q => max (val_main_v191 (F := Ideal) a.h a.ei a.et a.ws a.bs a.wr (ix2 n q)) 0)
          (a.gam (ix1 j)) (a.bet (ix1 j)) j := by
  have h1 : val_main_v216 (F := Ideal) a.h a.ei a.et a.ws a.bs a.wr a.gam a.bet (ix2 n j)
      = normRow (fun q => val_main_v192 (F := Ideal) a.h a.ei a.et a.ws a.bs a.wr (ix2 n q)) (a.gam (ix1 j)) (a.bet (ix1 j)) j := by
    rw [val_main_v216_apply, val_main_v213_apply, val_main_v210_apply, val_main_v209_apply, val_main_v212_apply,
      val_main_v211_apply, val_main_v215_apply, val_main_v214_apply, Ideal.addf_def, Ideal.mulf_def, Ideal.mulf_def,
      show idx_main_v209 (ix2 n j) = ix2 n (0 : Fin 1) from funext fun d => Fin.ext (by match d with | ⟨0, _⟩ => rfl | ⟨1, _⟩ => rfl),
      show idx_main_v211 (idx_main_v212 (ix2 n j)) = ix1 j from funext fun d => Fin.ext (by match d with | ⟨0, _⟩ => rfl),
      show idx_main_v214 (idx_main_v215 (ix2 n j)) = ix1 j from funext fun d => Fin.ext (by match d with | ⟨0, _⟩ => rfl),
      rs_at, centred'_at]
    rfl
  rw [h1]
  exact congrArg (fun x => normRow x (a.gam (ix1 j)) (a.bet (ix1 j)) j) (funext fun q => relu_at a (ix2 n q))

/-- The reference's pre-activation: its self term and then its eight relation terms, added one after the other. -/
theorem ref_pre (a : Args) (i : SNxD.Idx) :
    val_main_v191 (F := Ideal) a.h a.ei a.et a.ws a.bs a.wr i
      = val_main_v4 (F := Ideal) a.h a.ws a.bs i
        + val_main_v36 (F := Ideal) a.h a.ei a.et a.wr i + val_main_v58 (F := Ideal) a.h a.ei a.et a.wr i
        + val_main_v80 (F := Ideal) a.h a.ei a.et a.wr i + val_main_v102 (F := Ideal) a.h a.ei a.et a.wr i
        + val_main_v124 (F := Ideal) a.h a.ei a.et a.wr i + val_main_v146 (F := Ideal) a.h a.ei a.et a.wr i
        + val_main_v168 (F := Ideal) a.h a.ei a.et a.wr i + val_main_v190 (F := Ideal) a.h a.ei a.et a.wr i := by
  rw [val_main_v191_apply, val_main_v169_apply, val_main_v147_apply, val_main_v125_apply, val_main_v103_apply,
    val_main_v81_apply, val_main_v59_apply, val_main_v37_apply]
  rfl

/-- The reference's self term at (n, j). -/
theorem ref_self (a : Args) (n : Fin 100000) (j : Fin 128) :
    val_main_v4 (F := Ideal) a.h a.ws a.bs (ix2 n j) = selfTerm a n j := by
  rw [val_main_v4_apply, val_main_v1_apply, val_main_v3_apply, val_main_v2_apply, Ideal.addf_def]
  unfold selfTerm
  refine congrArg₂ (· + ·) (Finset.sum_congr rfl fun k _ => ?_) (congrArg a.bs ?_)
  · rw [val_main_v0_apply, show lidx_main_v1 (ix2 n j) k = ix2 n k from funext fun d => Fin.ext (by match d with | ⟨0, _⟩ => rfl | ⟨1, _⟩ => rfl),
      show idx_main_v0 (ridx_main_v1 (ix2 n j) k) = ix2 j k from funext fun d => Fin.ext (by match d with | ⟨0, _⟩ => rfl | ⟨1, _⟩ => rfl)]
  · exact funext fun d => Fin.ext (by match d with | ⟨0, _⟩ => rfl)

end Cert.GraphConv.Ref

end
-- ==== Proof.RefRel.lean ====
/-
  The reference's eight relation terms, each read at an index: the weighted source features of the edges into a
  node through the relation's map, summed, over the summed weights (at least one).
-/
import proofs.«413660_j81793357185090_2_alg».proof.Proof.Gen.ReferenceIdeal.Read
import proofs.«413660_j81793357185090_2_alg».proof.Proof.Spec
import proofs.«413660_j81793357185090_2_alg».proof.Proof.LibScatterRead
import Idealize.ShloMosaic.Lib.Affine

noncomputable section

open scoped BigOperators

namespace Cert.GraphConv.Ref

open Idealize.ShloMosaic Idealize.ShloMosaic.TcCoe Idealize.ShloMosaic.ValueIdx Idealize.SL.Sem
open Cert.ReferenceIdeal Cert.ReferenceIdeal.Gen Cert.ReferenceIdeal.Read Cert.GraphConv
open Idealize.ShloMosaic.ScatterRead

/-! ## Indices from their coordinates -/

/-- A rank-1 index is the one with its coordinate. -/
private theorem idx1_ext {n : Nat} (i : (⟨1, ![n]⟩ : Shape).Idx) (p : Fin n) (h0 : (i 0).val = p.val) : i = ix1 p := by
  funext d
  match d with
  | ⟨0, _⟩ => exact Fin.ext h0

/-- A rank-2 index is the one with its two coordinates. -/
private theorem idx2_ext {n0 n1 : Nat} (i : (⟨2, ![n0, n1]⟩ : Shape).Idx) (p : Fin n0) (q : Fin n1)
    (h0 : (i 0).val = p.val) (h1 : (i 1).val = q.val) : i = ix2 p q := by
  funext d
  match d with
  | ⟨0, _⟩ => exact Fin.ext h0
  | ⟨1, _⟩ => exact Fin.ext h1

/-- A rank-3 index is the one with its three coordinates. -/
private theorem idx3_ext {n0 n1 n2 : Nat} (i : (⟨3, ![n0, n1, n2]⟩ : Shape).Idx) (p : Fin n0) (q : Fin n1) (s : Fin n2)
    (h0 : (i 0).val = p.val) (h1 : (i 1).val = q.val) (h2 : (i 2).val = s.val) : i = ix3 p q s := by
  funext d
  match d with
  | ⟨0, _⟩ => exact Fin.ext h0
  | ⟨1, _⟩ => exact Fin.ext h1
  | ⟨2, _⟩ => exact Fin.ext h2

/-- Row-major position `j * 128 + k` of a [128 × 128] array splits back into `j` and `k`. -/
private theorem split128 (j k : Fin 128) :
    (j.val * 128 + k.val) / 128 % 128 = j.val ∧ (j.val * 128 + k.val) % 128 = k.val := by
  have := j.isLt
  have := k.isLt
  omega

/-! ## Words -/

/-- "Add the extent if the word is negative" keeps a word that is not negative. -/
private theorem wrap_nonneg (w c : BitVec 32) (hw : 0 ≤ w.toInt) :
    Scalar.select (IntOp.cmpi .slt w 0#32) c w = w := by
  have h : ¬ IntOp.cmpi .slt w 0#32 = 1#1 := by
    rw [IntOp.cmpi_slt]
    have h0 : (0#32 : BitVec 32).toInt = 0 := by decide
    omega
  rw [eq_zero_of_ne_one h, select_zero]

/-- The bit "the edge's relation word is the constant `c`", converted to a float, is the weight of relation `r`
    when `c` is the word of `r`. -/
private theorem bit_wgt (a : Args) (r : Fin 8) (c : BitVec 32) (hc : c.toInt = (r.val : ℤ)) (e : Fin 600000) :
    FloatOps.uitofp (F := Ideal) .f32 (IntOp.cmpi .eq (a.et (ix1 e)) c) = wgt a r e := by
  unfold wgt typW
  by_cases h : a.et (ix1 e) = c
  · rw [IntOp.cmpi_eq.mpr h, if_pos (by rw [h, hc])]
    show (((1#1 : BitVec 1).toNat : ℝ) : EReal) = 1
    simp
  · rw [eq_zero_of_ne_one (fun h1 => h (IntOp.cmpi_eq.mp h1)),
      if_neg (fun h1 => h (BitVec.eq_of_toInt_eq (h1.trans hc.symm)))]
    show (((0#1 : BitVec 1).toNat : ℝ) : EReal) = 0
    simp

/-! ## The two scatters into zeros, over the destination column -/

/-- The reference's row scatter-add into zeros whose index column is the edges' destinations: element `(n, j)` is
    the sum of column `j` of the rows of the edges into `n`. -/
private theorem scatter_rows_into (a : Args) (z : S100000x128.Idx → EReal) (idx : IVec S600000x1 32)
    (upd : S600000x128.Idx → EReal) (n : Fin 100000) (j : Fin 128)
    (hz : z (ix2 n j) = 0) (hidx : ∀ e, idx (ix2 e (0 : Fin 1)) = dstW a e) :
    Host.scatterAdd (F := Ideal) (φ := .f32) scatter_S100000x128_S600000x1_S600000x128_1_0_0_1 z idx upd (ix2 n j)
      = ∑ e ∈ intoNode a n, upd (ix2 e j) := by
  have hdef : Host.scatterAdd (F := Ideal) (φ := .f32) scatter_S100000x128_S600000x1_S600000x128_1_0_0_1 z idx upd
      = Ideal.hostScatterAdd scatter_S100000x128_S600000x1_S600000x128_1_0_0_1 z idx upd := rfl
  rw [hdef, scatterAdd_rows_apply scatter_S100000x128_S600000x1_S600000x128_1_0_0_1 rfl rfl rfl rfl, hz, zero_add]
  simp only [hidx]
  rfl

/-- The reference's flat scatter-add into zeros whose index column is the edges' destinations: element `n` is the
    sum of the entries of the edges into `n`. -/
private theorem scatter_flat_into (a : Args) (z : S100000.Idx → EReal) (idx : IVec S600000x1 32)
    (upd : S600000.Idx → EReal) (n : Fin 100000)
    (hz : z (ix1 n) = 0) (hidx : ∀ e, idx (ix2 e (0 : Fin 1)) = dstW a e) :
    Host.scatterAdd (F := Ideal) (φ := .f32) scatter_S100000_S600000x1_S600000_n_0_0_1 z idx upd (ix1 n)
      = ∑ e ∈ intoNode a n, upd (ix1 e) := by
  have hdef : Host.scatterAdd (F := Ideal) (φ := .f32) scatter_S100000_S600000x1_S600000_n_0_0_1 z idx upd
      = Ideal.hostScatterAdd scatter_S100000_S600000x1_S600000_n_0_0_1 z idx upd := rfl
  rw [hdef, scatterAdd_flat_apply scatter_S100000_S600000x1_S600000_n_0_0_1 rfl rfl rfl rfl, hz, zero_add]
  simp only [hidx]
  rfl

/-! ## The stretch the eight relations share: the edges' two words and the gathered source rows -/

/-- Row 0 of the edge array, wrapped into the node range, as a column: the edge's source word (a source word is
    not negative, so the wrap keeps it). -/
private theorem src_col (a : Args) (hy : Hyps a) (e : Fin 600000) :
    val_main_v14 (F := Ideal) a.ei (ix2 e (0 : Fin 1)) = srcW a e := by
  rw [val_main_v14_apply, val_main_v13_apply, val_main_v10_apply, val_main_v9_apply, val_main_c_apply,
    val_main_v6_apply, val_main_v5_apply,
    idx2_ext (idx_main_v5 (idx_main_v6 (idx_main_v14 (ix2 e (0 : Fin 1))))) (0 : Fin 2) e rfl
      (Nat.mod_eq_of_lt e.isLt)]
  exact wrap_nonneg _ _ (hy.ei_rng _).1

/-- Row 1 of the edge array: the edge's destination word. -/
private theorem dst_word (a : Args) (e : Fin 600000) :
    val_main_v8 (F := Ideal) a.ei (ix1 e) = dstW a e := by
  rw [val_main_v8_apply, val_main_v7_apply,
    idx2_ext (idx_main_v7 (idx_main_v8 (ix1 e))) (1 : Fin 2) e rfl (Nat.mod_eq_of_lt e.isLt)]
  rfl

/-- The gathered rows: row `e` is the feature row of edge `e`'s source node (the gather clamps the source word
    into the node range, as `node` does). -/
private theorem gathered (a : Args) (hy : Hyps a) (e : Fin 600000) (k : Fin 128) :
    val_main_v15 (F := Ideal) a.h a.ei (ix2 e k) = feat a e k := by
  unfold val_main_v15
  rw [gather_rows_apply (by omega) gather_S100000x128_S600000x1_S600000x128_1_0_n_n_0_1_1128 rfl rfl rfl rfl rfl rfl rfl]
  have hn : min (val_main_v14 (F := Ideal) a.ei (ix2 e (0 : Fin 1))).toInt.toNat (100000 - 1)
      = (node (srcW a e)).val := by
    rw [src_col a hy e]
    rfl
  exact congrArg (fun p : Fin 100000 => a.h (ix2 p k))
    (Fin.ext hn : (⟨_, _⟩ : Fin 100000) = node (srcW a e))

/-! ## Relation 0 -/

/-- Relation 0's weights: the bit "the relation word is 0", as a float. -/
private theorem w0 (a : Args) (e : Fin 600000) : val_main_v18 (F := Ideal) a.et (ix1 e) = wgt a 0 e := by
  rw [val_main_v18_apply, val_main_v17_apply, val_main_v16_apply, val_main_c_1_apply]
  exact bit_wgt a 0 _ (by decide) e

/-- The gathered rows times the weights, the weight spread along the row. -/
private theorem m0 (a : Args) (hy : Hyps a) (e : Fin 600000) (k : Fin 128) :
    val_main_v21 (F := Ideal) a.h a.ei a.et (ix2 e k) = feat a e k * wgt a 0 e := by
  rw [val_main_v21_apply, Ideal.mulf_def, gathered a hy e k, val_main_v20_apply, val_main_v19_apply,
    idx1_ext (idx_main_v19 (idx_main_v20 (ix2 e k))) e rfl, w0 a e]

/-- Relation 0's map, transposed: entry `(k, j)` is the map's `(j, k)`. -/
private theorem t0 (a : Args) (k j : Fin 128) :
    val_main_v24 (F := Ideal) a.wr (ix2 k j) = a.wr (ix3 0 j k) := by
  rw [val_main_v24_apply, val_main_v23_apply, val_main_v22_apply,
    idx3_ext (idx_main_v22 (idx_main_v23 (idx_main_v24 (ix2 k j)))) (0 : Fin 8) j k rfl (split128 j k).1 (split128 j k).2]

/-- Every edge's weighted features through the map. -/
private theorem d0 (a : Args) (hy : Hyps a) (e : Fin 600000) (j : Fin 128) :
    val_main_v25 (F := Ideal) a.h a.ei a.et a.wr (ix2 e j)
      = ∑ k : Fin 128, (feat a e k * wgt a 0 e) * a.wr (ix3 0 j k) := by
  rw [val_main_v25_apply]
  refine Finset.sum_congr rfl fun k _ => ?_
  rw [idx2_ext (lidx_main_v25 (ix2 e j) k) e k rfl rfl, idx2_ext (ridx_main_v25 (ix2 e j) k) k j rfl rfl,
    m0 a hy e k, t0 a k j]

/-- … summed over the edges into the node. -/
private theorem s0 (a : Args) (hy : Hyps a) (n : Fin 100000) (j : Fin 128) :
    val_main_v28 (F := Ideal) a.h a.ei a.et a.wr (ix2 n j)
      = ∑ e ∈ intoNode a n, ∑ k : Fin 128, (feat a e k * wgt a 0 e) * a.wr (ix3 0 j k) := by
  have hdef : val_main_v28 (F := Ideal) a.h a.ei a.et a.wr
      = Host.scatterAdd (F := Ideal) (φ := .f32) scatter_S100000x128_S600000x1_S600000x128_1_0_0_1
          (val_main_v26 (F := Ideal)) (val_main_v27 (F := Ideal) a.ei) (val_main_v25 (F := Ideal) a.h a.ei a.et a.wr) := rfl
  rw [hdef]
  refine (scatter_rows_into a _ _ _ n j ?_ ?_).trans ?_
  · rw [val_main_v26_apply, val_main_cst_apply, Ideal.ofBits_def, Ideal.ofBits_zero_f32]
  · intro e
    rw [val_main_v27_apply, idx1_ext (idx_main_v27 (ix2 e (0 : Fin 1))) e rfl, dst_word a e]
  · exact Finset.sum_congr rfl fun e _ => d0 a hy e j

/-- The weights summed over the edges into the node. -/
private theorem c0 (a : Args) (n : Fin 100000) :
    val_main_v31 (F := Ideal) a.ei a.et (ix1 n) = ∑ e ∈ intoNode a n, wgt a 0 e := by
  have hdef : val_main_v31 (F := Ideal) a.ei a.et
      = Host.scatterAdd (F := Ideal) (φ := .f32) scatter_S100000_S600000x1_S600000_n_0_0_1
          (val_main_v29 (F := Ideal)) (val_main_v30 (F := Ideal) a.ei) (val_main_v18 (F := Ideal) a.et) := rfl
  rw [hdef]
  refine (scatter_flat_into a _ _ _ n ?_ ?_).trans ?_
  · rw [val_main_v29_apply, val_main_cst_2_apply, Ideal.ofBits_def, Ideal.ofBits_zero_f32]
  · intro e
    rw [val_main_v30_apply, idx1_ext (idx_main_v30 (ix2 e (0 : Fin 1))) e rfl, dst_word a e]
  · exact Finset.sum_congr rfl fun e _ => w0 a e

/-- Relation 0's term of the reference at (n, j). -/
theorem rel0 (a : Args) (hy : Hyps a) (n : Fin 100000) (j : Fin 128) :
    val_main_v36 (F := Ideal) a.h a.ei a.et a.wr (ix2 n j) = relMap a 0 n j := by
  rw [val_main_v36_apply, Ideal.hostDivf_def, s0 a hy n j, val_main_v35_apply, val_main_v34_apply,
    idx1_ext (idx_main_v34 (idx_main_v35 (ix2 n j))) n rfl, val_main_v33_apply, Ideal.maximumf_def, c0 a n,
    val_main_v32_apply, val_main_cst_3_apply, Ideal.ofBits_def]
  rfl

/-! ## Relation 1 -/

/-- Relation 1's weights: the bit "the relation word is 1", as a float. -/
private theorem w1 (a : Args) (e : Fin 600000) : val_main_v40 (F := Ideal) a.et (ix1 e) = wgt a 1 e := by
  rw [val_main_v40_apply, val_main_v39_apply, val_main_v38_apply, val_main_c_4_apply]
  exact bit_wgt a 1 _ (by decide) e

/-- The gathered rows times the weights, the weight spread along the row. -/
private theorem m1 (a : Args) (hy : Hyps a) (e : Fin 600000) (k : Fin 128) :
    val_main_v43 (F := Ideal) a.h a.ei a.et (ix2 e k) = feat a e k * wgt a 1 e := by
  rw [val_main_v43_apply, Ideal.mulf_def, gathered a hy e k, val_main_v42_apply, val_main_v41_apply,
    idx1_ext (idx_main_v41 (idx_main_v42 (ix2 e k))) e rfl, w1 a e]

/-- Relation 1's map, transposed: entry `(k, j)` is the map's `(j, k)`. -/
private theorem t1 (a : Args) (k j : Fin 128) :
    val_main_v46 (F := Ideal) a.wr (ix2 k j) = a.wr (ix3 1 j k) := by
  rw [val_main_v46_apply, val_main_v45_apply, val_main_v44_apply,
    idx3_ext (idx_main_v44 (idx_main_v45 (idx_main_v46 (ix2 k j)))) (1 : Fin 8) j k rfl (split128 j k).1 (split128 j k).2]

/-- Every edge's weighted features through the map. -/
private theorem d1 (a : Args) (hy : Hyps a) (e : Fin 600000) (j : Fin 128) :
    val_main_v47 (F := Ideal) a.h a.ei a.et a.wr (ix2 e j)
      = ∑ k : Fin 128, (feat a e k * wgt a 1 e) * a.wr (ix3 1 j k) := by
  rw [val_main_v47_apply]
  refine Finset.sum_congr rfl fun k _ => ?_
  rw [idx2_ext (lidx_main_v47 (ix2 e j) k) e k rfl rfl, idx2_ext (ridx_main_v47 (ix2 e j) k) k j rfl rfl,
    m1 a hy e k, t1 a k j]

/-- … summed over the edges into the node. -/
private theorem s1 (a : Args) (hy : Hyps a) (n : Fin 100000) (j : Fin 128) :
    val_main_v50 (F := Ideal) a.h a.ei a.et a.wr (ix2 n j)
      = ∑ e ∈ intoNode a n, ∑ k : Fin 128, (feat a e k * wgt a 1 e) * a.wr (ix3 1 j k) := by
  have hdef : val_main_v50 (F := Ideal) a.h a.ei a.et a.wr
      = Host.scatterAdd (F := Ideal) (φ := .f32) scatter_S100000x128_S600000x1_S600000x128_1_0_0_1
          (val_main_v48 (F := Ideal)) (val_main_v49 (F := Ideal) a.ei) (val_main_v47 (F := Ideal) a.h a.ei a.et a.wr) := rfl
  rw [hdef]
  refine (scatter_rows_into a _ _ _ n j ?_ ?_).trans ?_
  · rw [val_main_v48_apply, val_main_cst_5_apply, Ideal.ofBits_def, Ideal.ofBits_zero_f32]
  · intro e
    rw [val_main_v49_apply, idx1_ext (idx_main_v49 (ix2 e (0 : Fin 1))) e rfl, dst_word a e]
  · exact Finset.sum_congr rfl fun e _ => d1 a hy e j

/-- The weights summed over the edges into the node. -/
private theorem c1 (a : Args) (n : Fin 100000) :
    val_main_v53 (F := Ideal) a.ei a.et (ix1 n) = ∑ e ∈ intoNode a n, wgt a 1 e := by
  have hdef : val_main_v53 (F := Ideal) a.ei a.et
      = Host.scatterAdd (F := Ideal) (φ := .f32) scatter_S100000_S600000x1_S600000_n_0_0_1
          (val_main_v51 (F := Ideal)) (val_main_v52 (F := Ideal) a.ei) (val_main_v40 (F := Ideal) a.et) := rfl
  rw [hdef]
  refine (scatter_flat_into a _ _ _ n ?_ ?_).trans ?_
  · rw [val_main_v51_apply, val_main_cst_6_apply, Ideal.ofBits_def, Ideal.ofBits_zero_f32]
  · intro e
    rw [val_main_v52_apply, idx1_ext (idx_main_v52 (ix2 e (0 : Fin 1))) e rfl, dst_word a e]
  · exact Finset.sum_congr rfl fun e _ => w1 a e

/-- Relation 1's term of the reference at (n, j). -/
theorem rel1 (a : Args) (hy : Hyps a) (n : Fin 100000) (j : Fin 128) :
    val_main_v58 (F := Ideal) a.h a.ei a.et a.wr (ix2 n j) = relMap a 1 n j := by
  rw [val_main_v58_apply, Ideal.hostDivf_def, s1 a hy n j, val_main_v57_apply, val_main_v56_apply,
    idx1_ext (idx_main_v56 (idx_main_v57 (ix2 n j))) n rfl, val_main_v55_apply, Ideal.maximumf_def, c1 a n,
    val_main_v54_apply, val_main_cst_7_apply, Ideal.ofBits_def]
  rfl

/-! ## Relation 2 -/

/-- Relation 2's weights: the bit "the relation word is 2", as a float. -/
private theorem w2 (a : Args) (e : Fin 600000) : val_main_v62 (F := Ideal) a.et (ix1 e) = wgt a 2 e := by
  rw [val_main_v62_apply, val_main_v61_apply, val_main_v60_apply, val_main_c_8_apply]
  exact bit_wgt a 2 _ (by decide) e

/-- The gathered rows times the weights, the weight spread along the row. -/
private theorem m2 (a : Args) (hy : Hyps a) (e : Fin 600000) (k : Fin 128) :
    val_main_v65 (F := Ideal) a.h a.ei a.et (ix2 e k) = feat a e k * wgt a 2 e := by
  rw [val_main_v65_apply, Ideal.mulf_def, gathered a hy e k, val_main_v64_apply, val_main_v63_apply,
    idx1_ext (idx_main_v63 (idx_main_v64 (ix2 e k))) e rfl, w2 a e]

/-- Relation 2's map, transposed: entry `(k, j)` is the map's `(j, k)`. -/
private theorem t2 (a : Args) (k j : Fin 128) :
    val_main_v68 (F := Ideal) a.wr (ix2 k j) = a.wr (ix3 2 j k) := by
  rw [val_main_v68_apply, val_main_v67_apply, val_main_v66_apply,
    idx3_ext (idx_main_v66 (idx_main_v67 (idx_main_v68 (ix2 k j)))) (2 : Fin 8) j k rfl (split128 j k).1 (split128 j k).2]

/-- Every edge's weighted features through the map. -/
private theorem d2 (a : Args) (hy : Hyps a) (e : Fin 600000) (j : Fin 128) :
    val_main_v69 (F := Ideal) a.h a.ei a.et a.wr (ix2 e j)
      = ∑ k : Fin 128, (feat a e k * wgt a 2 e) * a.wr (ix3 2 j k) := by
  rw [val_main_v69_apply]
  refine Finset.sum_congr rfl fun k _ => ?_
  rw [idx2_ext (lidx_main_v69 (ix2 e j) k) e k rfl rfl, idx2_ext (ridx_main_v69 (ix2 e j) k) k j rfl rfl,
    m2 a hy e k, t2 a k j]

/-- … summed over the edges into the node. -/
private theorem s2 (a : Args) (hy : Hyps a) (n : Fin 100000) (j : Fin 128) :
    val_main_v72 (F := Ideal) a.h a.ei a.et a.wr (ix2 n j)
      = ∑ e ∈ intoNode a n, ∑ k : Fin 128, (feat a e k * wgt a 2 e) * a.wr (ix3 2 j k) := by
  have hdef : val_main_v72 (F := Ideal) a.h a.ei a.et a.wr
      = Host.scatterAdd (F := Ideal) (φ := .f32) scatter_S100000x128_S600000x1_S600000x128_1_0_0_1
          (val_main_v70 (F := Ideal)) (val_main_v71 (F := Ideal) a.ei) (val_main_v69 (F := Ideal) a.h a.ei a.et a.wr) := rfl
  rw [hdef]
  refine (scatter_rows_into a _ _ _ n j ?_ ?_).trans ?_
  · rw [val_main_v70_apply, val_main_cst_9_apply, Ideal.ofBits_def, Ideal.ofBits_zero_f32]
  · intro e
    rw [val_main_v71_apply, idx1_ext (idx_main_v71 (ix2 e (0 : Fin 1))) e rfl, dst_word a e]
  · exact Finset.sum_congr rfl fun e _ => d2 a hy e j

/-- The weights summed over the edges into the node. -/
private theorem c2 (a : Args) (n : Fin 100000) :
    val_main_v75 (F := Ideal) a.ei a.et (ix1 n) = ∑ e ∈ intoNode a n, wgt a 2 e := by
  have hdef : val_main_v75 (F := Ideal) a.ei a.et
      = Host.scatterAdd (F := Ideal) (φ := .f32) scatter_S100000_S600000x1_S600000_n_0_0_1
          (val_main_v73 (F := Ideal)) (val_main_v74 (F := Ideal) a.ei) (val_main_v62 (F := Ideal) a.et) := rfl
  rw [hdef]
  refine (scatter_flat_into a _ _ _ n ?_ ?_).trans ?_
  · rw [val_main_v73_apply, val_main_cst_10_apply, Ideal.ofBits_def, Ideal.ofBits_zero_f32]
  · intro e
    rw [val_main_v74_apply, idx1_ext (idx_main_v74 (ix2 e (0 : Fin 1))) e rfl, dst_word a e]
  · exact Finset.sum_congr rfl fun e _ => w2 a e

/-- Relation 2's term of the reference at (n, j). -/
theorem rel2 (a : Args) (hy : Hyps a) (n : Fin 100000) (j : Fin 128) :
    val_main_v80 (F := Ideal) a.h a.ei a.et a.wr (ix2 n j) = relMap a 2 n j := by
  rw [val_main_v80_apply, Ideal.hostDivf_def, s2 a hy n j, val_main_v79_apply, val_main_v78_apply,
    idx1_ext (idx_main_v78 (idx_main_v79 (ix2 n j))) n rfl, val_main_v77_apply, Ideal.maximumf_def, c2 a n,
    val_main_v76_apply, val_main_cst_11_apply, Ideal.ofBits_def]
  rfl

/-! ## Relation 3 -/

/-- Relation 3's weights: the bit "the relation word is 3", as a float. -/
private theorem w3 (a : Args) (e : Fin 600000) : val_main_v84 (F := Ideal) a.et (ix1 e) = wgt a 3 e := by
  rw [val_main_v84_apply, val_main_v83_apply, val_main_v82_apply, val_main_c_12_apply]
  exact bit_wgt a 3 _ (by decide) e

/-- The gathered rows times the weights, the weight spread along the row. -/
private theorem m3 (a : Args) (hy : Hyps a) (e : Fin 600000) (k : Fin 128) :
    val_main_v87 (F := Ideal) a.h a.ei a.et (ix2 e k) = feat a e k * wgt a 3 e := by
  rw [val_main_v87_apply, Ideal.mulf_def, gathered a hy e k, val_main_v86_apply, val_main_v85_apply,
    idx1_ext (idx_main_v85 (idx_main_v86 (ix2 e k))) e rfl, w3 a e]

/-- Relation 3's map, transposed: entry `(k, j)` is the map's `(j, k)`. -/
private theorem t3 (a : Args) (k j : Fin 128) :
    val_main_v90 (F := Ideal) a.wr (ix2 k j) = a.wr (ix3 3 j k) := by
  rw [val_main_v90_apply, val_main_v89_apply, val_main_v88_apply,
    idx3_ext (idx_main_v88 (idx_main_v89 (idx_main_v90 (ix2 k j)))) (3 : Fin 8) j k rfl (split128 j k).1 (split128 j k).2]

/-- Every edge's weighted features through the map. -/
private theorem d3 (a : Args) (hy : Hyps a) (e : Fin 600000) (j : Fin 128) :
    val_main_v91 (F := Ideal) a.h a.ei a.et a.wr (ix2 e j)
      = ∑ k : Fin 128, (feat a e k * wgt a 3 e) * a.wr (ix3 3 j k) := by
  rw [val_main_v91_apply]
  refine Finset.sum_congr rfl fun k _ => ?_
  rw [idx2_ext (lidx_main_v91 (ix2 e j) k) e k rfl rfl, idx2_ext (ridx_main_v91 (ix2 e j) k) k j rfl rfl,
    m3 a hy e k, t3 a k j]

/-- … summed over the edges into the node. -/
private theorem s3 (a : Args) (hy : Hyps a) (n : Fin 100000) (j : Fin 128) :
    val_main_v94 (F := Ideal) a.h a.ei a.et a.wr (ix2 n j)
      = ∑ e ∈ intoNode a n, ∑ k : Fin 128, (feat a e k * wgt a 3 e) * a.wr (ix3 3 j k) := by
  have hdef : val_main_v94 (F := Ideal) a.h a.ei a.et a.wr
      = Host.scatterAdd (F := Ideal) (φ := .f32) scatter_S100000x128_S600000x1_S600000x128_1_0_0_1
          (val_main_v92 (F := Ideal)) (val_main_v93 (F := Ideal) a.ei) (val_main_v91 (F := Ideal) a.h a.ei a.et a.wr) := rfl
  rw [hdef]
  refine (scatter_rows_into a _ _ _ n j ?_ ?_).trans ?_
  · rw [val_main_v92_apply, val_main_cst_13_apply, Ideal.ofBits_def, Ideal.ofBits_zero_f32]
  · intro e
    rw [val_main_v93_apply, idx1_ext (idx_main_v93 (ix2 e (0 : Fin 1))) e rfl, dst_word a e]
  · exact Finset.sum_congr rfl fun e _ => d3 a hy e j

/-- The weights summed over the edges into the node. -/
private theorem c3 (a : Args) (n : Fin 100000) :
    val_main_v97 (F := Ideal) a.ei a.et (ix1 n) = ∑ e ∈ intoNode a n, wgt a 3 e := by
  have hdef : val_main_v97 (F := Ideal) a.ei a.et
      = Host.scatterAdd (F := Ideal) (φ := .f32) scatter_S100000_S600000x1_S600000_n_0_0_1
          (val_main_v95 (F := Ideal)) (val_main_v96 (F := Ideal) a.ei) (val_main_v84 (F := Ideal) a.et) := rfl
  rw [hdef]
  refine (scatter_flat_into a _ _ _ n ?_ ?_).trans ?_
  · rw [val_main_v95_apply, val_main_cst_14_apply, Ideal.ofBits_def, Ideal.ofBits_zero_f32]
  · intro e
    rw [val_main_v96_apply, idx1_ext (idx_main_v96 (ix2 e (0 : Fin 1))) e rfl, dst_word a e]
  · exact Finset.sum_congr rfl fun e _ => w3 a e

/-- Relation 3's term of the reference at (n, j). -/
theorem rel3 (a : Args) (hy : Hyps a) (n : Fin 100000) (j : Fin 128) :
    val_main_v102 (F := Ideal) a.h a.ei a.et a.wr (ix2 n j) = relMap a 3 n j := by
  rw [val_main_v102_apply, Ideal.hostDivf_def, s3 a hy n j, val_main_v101_apply, val_main_v100_apply,
    idx1_ext (idx_main_v100 (idx_main_v101 (ix2 n j))) n rfl, val_main_v99_apply, Ideal.maximumf_def, c3 a n,
    val_main_v98_apply, val_main_cst_15_apply, Ideal.ofBits_def]
  rfl

/-! ## Relation 4 -/

/-- Relation 4's weights: the bit "the relation word is 4", as a float. -/
private theorem w4 (a : Args) (e : Fin 600000) : val_main_v106 (F := Ideal) a.et (ix1 e) = wgt a 4 e := by
  rw [val_main_v106_apply, val_main_v105_apply, val_main_v104_apply, val_main_c_16_apply]
  exact bit_wgt a 4 _ (by decide) e

/-- The gathered rows times the weights, the weight spread along the row. -/
private theorem m4 (a : Args) (hy : Hyps a) (e : Fin 600000) (k : Fin 128) :
    val_main_v109 (F := Ideal) a.h a.ei a.et (ix2 e k) = feat a e k * wgt a 4 e := by
  rw [val_main_v109_apply, Ideal.mulf_def, gathered a hy e k, val_main_v108_apply, val_main_v107_apply,
    idx1_ext (idx_main_v107 (idx_main_v108 (ix2 e k))) e rfl, w4 a e]

/-- Relation 4's map, transposed: entry `(k, j)` is the map's `(j, k)`. -/
private theorem t4 (a : Args) (k j : Fin 128) :
    val_main_v112 (F := Ideal) a.wr (ix2 k j) = a.wr (ix3 4 j k) := by
  rw [val_main_v112_apply, val_main_v111_apply, val_main_v110_apply,
    idx3_ext (idx_main_v110 (idx_main_v111 (idx_main_v112 (ix2 k j)))) (4 : Fin 8) j k rfl (split128 j k).1 (split128 j k).2]

/-- Every edge's weighted features through the map. -/
private theorem d4 (a : Args) (hy : Hyps a) (e : Fin 600000) (j : Fin 128) :
    val_main_v113 (F := Ideal) a.h a.ei a.et a.wr (ix2 e j)
      = ∑ k : Fin 128, (feat a e k * wgt a 4 e) * a.wr (ix3 4 j k) := by
  rw [val_main_v113_apply]
  refine Finset.sum_congr rfl fun k _ => ?_
  rw [idx2_ext (lidx_main_v113 (ix2 e j) k) e k rfl rfl, idx2_ext (ridx_main_v113 (ix2 e j) k) k j rfl rfl,
    m4 a hy e k, t4 a k j]

/-- … summed over the edges into the node. -/
private theorem s4 (a : Args) (hy : Hyps a) (n : Fin 100000) (j : Fin 128) :
    val_main_v116 (F := Ideal) a.h a.ei a.et a.wr (ix2 n j)
      = ∑ e ∈ intoNode a n, ∑ k : Fin 128, (feat a e k * wgt a 4 e) * a.wr (ix3 4 j k) := by
  have hdef : val_main_v116 (F := Ideal) a.h a.ei a.et a.wr
      = Host.scatterAdd (F := Ideal) (φ := .f32) scatter_S100000x128_S600000x1_S600000x128_1_0_0_1
          (val_main_v114 (F := Ideal)) (val_main_v115 (F := Ideal) a.ei) (val_main_v113 (F := Ideal) a.h a.ei a.et a.wr) := rfl
  rw [hdef]
  refine (scatter_rows_into a _ _ _ n j ?_ ?_).trans ?_
  · rw [val_main_v114_apply, val_main_cst_17_apply, Ideal.ofBits_def, Ideal.ofBits_zero_f32]
  · intro e
    rw [val_main_v115_apply, idx1_ext (idx_main_v115 (ix2 e (0 : Fin 1))) e rfl, dst_word a e]
  · exact Finset.sum_congr rfl fun e _ => d4 a hy e j

/-- The weights summed over the edges into the node. -/
private theorem c4 (a : Args) (n : Fin 100000) :
    val_main_v119 (F := Ideal) a.ei a.et (ix1 n) = ∑ e ∈ intoNode a n, wgt a 4 e := by
  have hdef : val_main_v119 (F := Ideal) a.ei a.et
      = Host.scatterAdd (F := Ideal) (φ := .f32) scatter_S100000_S600000x1_S600000_n_0_0_1
          (val_main_v117 (F := Ideal)) (val_main_v118 (F := Ideal) a.ei) (val_main_v106 (F := Ideal) a.et) := rfl
  rw [hdef]
  refine (scatter_flat_into a _ _ _ n ?_ ?_).trans ?_
  · rw [val_main_v117_apply, val_main_cst_18_apply, Ideal.ofBits_def, Ideal.ofBits_zero_f32]
  · intro e
    rw [val_main_v118_apply, idx1_ext (idx_main_v118 (ix2 e (0 : Fin 1))) e rfl, dst_word a e]
  · exact Finset.sum_congr rfl fun e _ => w4 a e

/-- Relation 4's term of the reference at (n, j). -/
theorem rel4 (a : Args) (hy : Hyps a) (n : Fin 100000) (j : Fin 128) :
    val_main_v124 (F := Ideal) a.h a.ei a.et a.wr (ix2 n j) = relMap a 4 n j := by
  rw [val_main_v124_apply, Ideal.hostDivf_def, s4 a hy n j, val_main_v123_apply, val_main_v122_apply,
    idx1_ext (idx_main_v122 (idx_main_v123 (ix2 n j))) n rfl, val_main_v121_apply, Ideal.maximumf_def, c4 a n,
    val_main_v120_apply, val_main_cst_19_apply, Ideal.ofBits_def]
  rfl

/-! ## Relation 5 -/

/-- Relation 5's weights: the bit "the relation word is 5", as a float. -/
private theorem w5 (a : Args) (e : Fin 600000) : val_main_v128 (F := Ideal) a.et (ix1 e) = wgt a 5 e := by
  rw [val_main_v128_apply, val_main_v127_apply, val_main_v126_apply, val_main_c_20_apply]
  exact bit_wgt a 5 _ (by decide) e

/-- The gathered rows times the weights, the weight spread along the row. -/
private theorem m5 (a : Args) (hy : Hyps a) (e : Fin 600000) (k : Fin 128) :
    val_main_v131 (F := Ideal) a.h a.ei a.et (ix2 e k) = feat a e k * wgt a 5 e := by
  rw [val_main_v131_apply, Ideal.mulf_def, gathered a hy e k, val_main_v130_apply, val_main_v129_apply,
    idx1_ext (idx_main_v129 (idx_main_v130 (ix2 e k))) e rfl, w5 a e]

/-- Relation 5's map, transposed: entry `(k, j)` is the map's `(j, k)`. -/
private theorem t5 (a : Args) (k j : Fin 128) :
    val_main_v134 (F := Ideal) a.wr (ix2 k j) = a.wr (ix3 5 j k) := by
  rw [val_main_v134_apply, val_main_v133_apply, val_main_v132_apply,
    idx3_ext (idx_main_v132 (idx_main_v133 (idx_main_v134 (ix2 k j)))) (5 : Fin 8) j k rfl (split128 j k).1 (split128 j k).2]

/-- Every edge's weighted features through the map. -/
private theorem d5 (a : Args) (hy : Hyps a) (e : Fin 600000) (j : Fin 128) :
    val_main_v135 (F := Ideal) a.h a.ei a.et a.wr (ix2 e j)
      = ∑ k : Fin 128, (feat a e k * wgt a 5 e) * a.wr (ix3 5 j k) := by
  rw [val_main_v135_apply]
  refine Finset.sum_congr rfl fun k _ => ?_
  rw [idx2_ext (lidx_main_v135 (ix2 e j) k) e k rfl rfl, idx2_ext (ridx_main_v135 (ix2 e j) k) k j rfl rfl,
    m5 a hy e k, t5 a k j]

/-- … summed over the edges into the node. -/
private theorem s5 (a : Args) (hy : Hyps a) (n : Fin 100000) (j : Fin 128) :
    val_main_v138 (F := Ideal) a.h a.ei a.et a.wr (ix2 n j)
      = ∑ e ∈ intoNode a n, ∑ k : Fin 128, (feat a e k * wgt a 5 e) * a.wr (ix3 5 j k) := by
  have hdef : val_main_v138 (F := Ideal) a.h a.ei a.et a.wr
      = Host.scatterAdd (F := Ideal) (φ := .f32) scatter_S100000x128_S600000x1_S600000x128_1_0_0_1
          (val_main_v136 (F := Ideal)) (val_main_v137 (F := Ideal) a.ei) (val_main_v135 (F := Ideal) a.h a.ei a.et a.wr) := rfl
  rw [hdef]
  refine (scatter_rows_into a _ _ _ n j ?_ ?_).trans ?_
  · rw [val_main_v136_apply, val_main_cst_21_apply, Ideal.ofBits_def, Ideal.ofBits_zero_f32]
  · intro e
    rw [val_main_v137_apply, idx1_ext (idx_main_v137 (ix2 e (0 : Fin 1))) e rfl, dst_word a e]
  · exact Finset.sum_congr rfl fun e _ => d5 a hy e j

/-- The weights summed over the edges into the node. -/
private theorem c5 (a : Args) (n : Fin 100000) :
    val_main_v141 (F := Ideal) a.ei a.et (ix1 n) = ∑ e ∈ intoNode a n, wgt a 5 e := by
  have hdef : val_main_v141 (F := Ideal) a.ei a.et
      = Host.scatterAdd (F := Ideal) (φ := .f32) scatter_S100000_S600000x1_S600000_n_0_0_1
          (val_main_v139 (F := Ideal)) (val_main_v140 (F := Ideal) a.ei) (val_main_v128 (F := Ideal) a.et) := rfl
  rw [hdef]
  refine (scatter_flat_into a _ _ _ n ?_ ?_).trans ?_
  · rw [val_main_v139_apply, val_main_cst_22_apply, Ideal.ofBits_def, Ideal.ofBits_zero_f32]
  · intro e
    rw [val_main_v140_apply, idx1_ext (idx_main_v140 (ix2 e (0 : Fin 1))) e rfl, dst_word a e]
  · exact Finset.sum_congr rfl fun e _ => w5 a e

/-- Relation 5's term of the reference at (n, j). -/
theorem rel5 (a : Args) (hy : Hyps a) (n : Fin 100000) (j : Fin 128) :
    val_main_v146 (F := Ideal) a.h a.ei a.et a.wr (ix2 n j) = relMap a 5 n j := by
  rw [val_main_v146_apply, Ideal.hostDivf_def, s5 a hy n j, val_main_v145_apply, val_main_v144_apply,
    idx1_ext (idx_main_v144 (idx_main_v145 (ix2 n j))) n rfl, val_main_v143_apply, Ideal.maximumf_def, c5 a n,
    val_main_v142_apply, val_main_cst_23_apply, Ideal.ofBits_def]
  rfl

/-! ## Relation 6 -/

/-- Relation 6's weights: the bit "the relation word is 6", as a float. -/
private theorem w6 (a : Args) (e : Fin 600000) : val_main_v150 (F := Ideal) a.et (ix1 e) = wgt a 6 e := by
  rw [val_main_v150_apply, val_main_v149_apply, val_main_v148_apply, val_main_c_24_apply]
  exact bit_wgt a 6 _ (by decide) e

/-- The gathered rows times the weights, the weight spread along the row. -/
private theorem m6 (a : Args) (hy : Hyps a) (e : Fin 600000) (k : Fin 128) :
    val_main_v153 (F := Ideal) a.h a.ei a.et (ix2 e k) = feat a e k * wgt a 6 e := by
  rw [val_main_v153_apply, Ideal.mulf_def, gathered a hy e k, val_main_v152_apply, val_main_v151_apply,
    idx1_ext (idx_main_v151 (idx_main_v152 (ix2 e k))) e rfl, w6 a e]

/-- Relation 6's map, transposed: entry `(k, j)` is the map's `(j, k)`. -/
private theorem t6 (a : Args) (k j : Fin 128) :
    val_main_v156 (F := Ideal) a.wr (ix2 k j) = a.wr (ix3 6 j k) := by
  rw [val_main_v156_apply, val_main_v155_apply, val_main_v154_apply,
    idx3_ext (idx_main_v154 (idx_main_v155 (idx_main_v156 (ix2 k j)))) (6 : Fin 8) j k rfl (split128 j k).1 (split128 j k).2]

/-- Every edge's weighted features through the map. -/
private theorem d6 (a : Args) (hy : Hyps a) (e : Fin 600000) (j : Fin 128) :
    val_main_v157 (F := Ideal) a.h a.ei a.et a.wr (ix2 e j)
      = ∑ k : Fin 128, (feat a e k * wgt a 6 e) * a.wr (ix3 6 j k) := by
  rw [val_main_v157_apply]
  refine Finset.sum_congr rfl fun k _ => ?_
  rw [idx2_ext (lidx_main_v157 (ix2 e j) k) e k rfl rfl, idx2_ext (ridx_main_v157 (ix2 e j) k) k j rfl rfl,
    m6 a hy e k, t6 a k j]

/-- … summed over the edges into the node. -/
private theorem s6 (a : Args) (hy : Hyps a) (n : Fin 100000) (j : Fin 128) :
    val_main_v160 (F := Ideal) a.h a.ei a.et a.wr (ix2 n j)
      = ∑ e ∈ intoNode a n, ∑ k : Fin 128, (feat a e k * wgt a 6 e) * a.wr (ix3 6 j k) := by
  have hdef : val_main_v160 (F := Ideal) a.h a.ei a.et a.wr
      = Host.scatterAdd (F := Ideal) (φ := .f32) scatter_S100000x128_S600000x1_S600000x128_1_0_0_1
          (val_main_v158 (F := Ideal)) (val_main_v159 (F := Ideal) a.ei) (val_main_v157 (F := Ideal) a.h a.ei a.et a.wr) := rfl
  rw [hdef]
  refine (scatter_rows_into a _ _ _ n j ?_ ?_).trans ?_
  · rw [val_main_v158_apply, val_main_cst_25_apply, Ideal.ofBits_def, Ideal.ofBits_zero_f32]
  · intro e
    rw [val_main_v159_apply, idx1_ext (idx_main_v159 (ix2 e (0 : Fin 1))) e rfl, dst_word a e]
  · exact Finset.sum_congr rfl fun e _ => d6 a hy e j

/-- The weights summed over the edges into the node. -/
private theorem c6 (a : Args) (n : Fin 100000) :
    val_main_v163 (F := Ideal) a.ei a.et (ix1 n) = ∑ e ∈ intoNode a n, wgt a 6 e := by
  have hdef : val_main_v163 (F := Ideal) a.ei a.et
      = Host.scatterAdd (F := Ideal) (φ := .f32) scatter_S100000_S600000x1_S600000_n_0_0_1
          (val_main_v161 (F := Ideal)) (val_main_v162 (F := Ideal) a.ei) (val_main_v150 (F := Ideal) a.et) := rfl
  rw [hdef]
  refine (scatter_flat_into a _ _ _ n ?_ ?_).trans ?_
  · rw [val_main_v161_apply, val_main_cst_26_apply, Ideal.ofBits_def, Ideal.ofBits_zero_f32]
  · intro e
    rw [val_main_v162_apply, idx1_ext (idx_main_v162 (ix2 e (0 : Fin 1))) e rfl, dst_word a e]
  · exact Finset.sum_congr rfl fun e _ => w6 a e

/-- Relation 6's term of the reference at (n, j). -/
theorem rel6 (a : Args) (hy : Hyps a) (n : Fin 100000) (j : Fin 128) :
    val_main_v168 (F := Ideal) a.h a.ei a.et a.wr (ix2 n j) = relMap a 6 n j := by
  rw [val_main_v168_apply, Ideal.hostDivf_def, s6 a hy n j, val_main_v167_apply, val_main_v166_apply,
    idx1_ext (idx_main_v166 (idx_main_v167 (ix2 n j))) n rfl, val_main_v165_apply, Ideal.maximumf_def, c6 a n,
    val_main_v164_apply, val_main_cst_27_apply, Ideal.ofBits_def]
  rfl

/-! ## Relation 7 -/

/-- Relation 7's weights: the bit "the relation word is 7", as a float. -/
private theorem w7 (a : Args) (e : Fin 600000) : val_main_v172 (F := Ideal) a.et (ix1 e) = wgt a 7 e := by
  rw [val_main_v172_apply, val_main_v171_apply, val_main_v170_apply, val_main_c_28_apply]
  exact bit_wgt a 7 _ (by decide) e

/-- The gathered rows times the weights, the weight spread along the row. -/
private theorem m7 (a : Args) (hy : Hyps a) (e : Fin 600000) (k : Fin 128) :
    val_main_v175 (F := Ideal) a.h a.ei a.et (ix2 e k) = feat a e k * wgt a 7 e := by
  rw [val_main_v175_apply, Ideal.mulf_def, gathered a hy e k, val_main_v174_apply, val_main_v173_apply,
    idx1_ext (idx_main_v173 (idx_main_v174 (ix2 e k))) e rfl, w7 a e]

/-- Relation 7's map, transposed: entry `(k, j)` is the map's `(j, k)`. -/
private theorem t7 (a : Args) (k j : Fin 128) :
    val_main_v178 (F := Ideal) a.wr (ix2 k j) = a.wr (ix3 7 j k) := by
  rw [val_main_v178_apply, val_main_v177_apply, val_main_v176_apply,
    idx3_ext (idx_main_v176 (idx_main_v177 (idx_main_v178 (ix2 k j)))) (7 : Fin 8) j k rfl (split128 j k).1 (split128 j k).2]

/-- Every edge's weighted features through the map. -/
private theorem d7 (a : Args) (hy : Hyps a) (e : Fin 600000) (j : Fin 128) :
    val_main_v179 (F := Ideal) a.h a.ei a.et a.wr (ix2 e j)
      = ∑ k : Fin 128, (feat a e k * wgt a 7 e) * a.wr (ix3 7 j k) := by
  rw [val_main_v179_apply]
  refine Finset.sum_congr rfl fun k _ => ?_
  rw [idx2_ext (lidx_main_v179 (ix2 e j) k) e k rfl rfl, idx2_ext (ridx_main_v179 (ix2 e j) k) k j rfl rfl,
    m7 a hy e k, t7 a k j]

/-- … summed over the edges into the node. -/
private theorem s7 (a : Args) (hy : Hyps a) (n : Fin 100000) (j : Fin 128) :
    val_main_v182 (F := Ideal) a.h a.ei a.et a.wr (ix2 n j)
      = ∑ e ∈ intoNode a n, ∑ k : Fin 128, (feat a e k * wgt a 7 e) * a.wr (ix3 7 j k) := by
  have hdef : val_main_v182 (F := Ideal) a.h a.ei a.et a.wr
      = Host.scatterAdd (F := Ideal) (φ := .f32) scatter_S100000x128_S600000x1_S600000x128_1_0_0_1
          (val_main_v180 (F := Ideal)) (val_main_v181 (F := Ideal) a.ei) (val_main_v179 (F := Ideal) a.h a.ei a.et a.wr) := rfl
  rw [hdef]
  refine (scatter_rows_into a _ _ _ n j ?_ ?_).trans ?_
  · rw [val_main_v180_apply, val_main_cst_29_apply, Ideal.ofBits_def, Ideal.ofBits_zero_f32]
  · intro e
    rw [val_main_v181_apply, idx1_ext (idx_main_v181 (ix2 e (0 : Fin 1))) e rfl, dst_word a e]
  · exact Finset.sum_congr rfl fun e _ => d7 a hy e j

/-- The weights summed over the edges into the node. -/
private theorem c7 (a : Args) (n : Fin 100000) :
    val_main_v185 (F := Ideal) a.ei a.et (ix1 n) = ∑ e ∈ intoNode a n, wgt a 7 e := by
  have hdef : val_main_v185 (F := Ideal) a.ei a.et
      = Host.scatterAdd (F := Ideal) (φ := .f32) scatter_S100000_S600000x1_S600000_n_0_0_1
          (val_main_v183 (F := Ideal)) (val_main_v184 (F := Ideal) a.ei) (val_main_v172 (F := Ideal) a.et) := rfl
  rw [hdef]
  refine (scatter_flat_into a _ _ _ n ?_ ?_).trans ?_
  · rw [val_main_v183_apply, val_main_cst_30_apply, Ideal.ofBits_def, Ideal.ofBits_zero_f32]
  · intro e
    rw [val_main_v184_apply, idx1_ext (idx_main_v184 (ix2 e (0 : Fin 1))) e rfl, dst_word a e]
  · exact Finset.sum_congr rfl fun e _ => w7 a e

/-- Relation 7's term of the reference at (n, j). -/
theorem rel7 (a : Args) (hy : Hyps a) (n : Fin 100000) (j : Fin 128) :
    val_main_v190 (F := Ideal) a.h a.ei a.et a.wr (ix2 n j) = relMap a 7 n j := by
  rw [val_main_v190_apply, Ideal.hostDivf_def, s7 a hy n j, val_main_v189_apply, val_main_v188_apply,
    idx1_ext (idx_main_v188 (idx_main_v189 (ix2 n j))) n rfl, val_main_v187_apply, Ideal.maximumf_def, c7 a n,
    val_main_v186_apply, val_main_cst_31_apply, Ideal.ofBits_def]
  rfl

end Cert.GraphConv.Ref

end
-- ==== Proof.Core.lean ====
/-
  The two arrangements of a relation's term agree on the layer's domain: a matrix product is linear, so the sum of the
  mapped, weighted features of a node's incoming edges, divided by the number of edges of the relation, is the map of
  their averaged sum. Over the extended reals this needs the features and the maps to be real numbers.
-/
import proofs.«413660_j81793357185090_2_alg».proof.Proof.Spec

noncomputable section

open scoped BigOperators

namespace Cert.GraphConv

open Idealize.ShloMosaic Idealize.ShloMosaic.ValueIdx

/-- The word both arrangements carry for the count's floor is the real number one. -/
private theorem oneF_eq : (oneF : EReal) = ((1 : ℝ) : EReal) := by
  simp [Ideal.ofBits, Ideal.ieee, -EReal.coe_mul, -EReal.coe_one]
  norm_num

/-- A finite sum of real numbers, read in the extended reals, is the sum of the readings. -/
private theorem coe_sum {ι : Type} (s : Finset ι) (g : ι → ℝ) :
    ((∑ i ∈ s, g i : ℝ) : EReal) = ∑ i ∈ s, (g i : EReal) := by
  classical
  refine Finset.induction_on s ?_ ?_
  · simp
  · intro i s hi ih
    rw [Finset.sum_insert hi, Finset.sum_insert hi, EReal.coe_add, ih]

/-- Weighting every incoming edge by whether it has the relation, and summing over all incoming edges, is summing
    over the relation's edges alone. -/
private theorem sum_wgt_mul (a : Args) (r : Fin 8) (n : Fin 100000) (j : Fin 128) :
    ∑ e ∈ intoNode a n, ∑ k : Fin 128, (feat a e k * wgt a r e) * a.wr (ix3 r j k)
      = ∑ e ∈ edges a n r, ∑ k : Fin 128, feat a e k * a.wr (ix3 r j k) := by
  unfold edges
  rw [Finset.sum_filter]
  refine Finset.sum_congr rfl fun e _ => ?_
  by_cases h : (typW a e).toInt = (r.val : ℤ) <;> simp [wgt, h]

/-- The sum of the weights over the incoming edges counts the relation's edges. -/
private theorem sum_wgt (a : Args) (r : Fin 8) (n : Fin 100000) :
    ∑ e ∈ intoNode a n, wgt a r e = ∑ _e ∈ edges a n r, ((1 : ℝ) : EReal) := by
  unfold edges wgt
  rw [Finset.sum_filter]
  refine Finset.sum_congr rfl fun e _ => ?_
  rw [EReal.coe_one]

/-- The law among real numbers: averaging the summed features and then mapping is mapping every edge's features,
    summing, and then averaging. -/
private theorem real_law {ι : Type} (B : Finset ι) (f : ι → Fin 128 → ℝ) (w : Fin 128 → ℝ) (m : ℝ) :
    ∑ k : Fin 128, ((∑ e ∈ B, f e k) * (1 * (1 / m))) * w k = (∑ e ∈ B, ∑ k : Fin 128, f e k * w k) * (1 / m) := by
  rw [Finset.sum_comm, Finset.sum_mul]
  refine Finset.sum_congr rfl fun k _ => ?_
  rw [← Finset.sum_mul]
  ring

/-- On the domain, summing a relation's source features first and mapping after is mapping every weighted edge
    first and summing after. -/
theorem relSum_eq_relMap (a : Args) (hy : Hyps a) (r : Fin 8) (n : Fin 100000) (j : Fin 128) :
    relSum a r n j = relMap a r n j := by
  classical
  choose fh hfh using hy.h_real
  choose w hw using hy.wr_real
  have hfeat : ∀ e k, feat a e k = ((fh (ix2 (node (srcW a e)) k) : ℝ) : EReal) := fun e k => hfh _
  unfold relSum relMap
  rw [sum_wgt_mul, sum_wgt, oneF_eq]
  generalize edges a n r = B
  -- the count is a real number, and its floor at one is a real number that is not zero
  have hc : (∑ _e ∈ B, ((1 : ℝ) : EReal)) = ((B.card : ℝ) : EReal) := by
    rw [← coe_sum]; simp
  have hm : max ((B.card : ℝ) : EReal) ((1 : ℝ) : EReal) = ((max (B.card : ℝ) 1 : ℝ) : EReal) :=
    (EReal.coe_strictMono.monotone.map_max).symm
  have hmne : max (B.card : ℝ) 1 ≠ 0 := ne_of_gt (lt_of_lt_of_le one_pos (le_max_right _ _))
  rw [hc, hm, Ideal.div_coe hmne, Ideal.div_coe hmne]
  -- every term is a real number: the law is the one among real numbers
  simp only [hfeat, hw, ← EReal.coe_mul, ← coe_sum]
  rw [real_law]

end Cert.GraphConv

end
-- ==== Proof.RefValue.lean ====
/-
  The reference's result array is the specification's array in the map-first arrangement; on the layer's domain the
  two arrangements are one array.
-/
import proofs.«413660_j81793357185090_2_alg».proof.Proof.RefNorm
import proofs.«413660_j81793357185090_2_alg».proof.Proof.RefRel
import proofs.«413660_j81793357185090_2_alg».proof.Proof.Core

noncomputable section

open scoped BigOperators

namespace Cert.GraphConv.Ref

open Idealize.ShloMosaic Idealize.ShloMosaic.TcCoe Idealize.ShloMosaic.ValueIdx Idealize.SL.Sem
open Cert.ReferenceIdeal Cert.ReferenceIdeal.Gen Cert.ReferenceIdeal.Read Cert.GraphConv

/-- The reference's pre-activation at (n, q): the self term and the eight map-first relation terms. -/
theorem ref_pre_apply (a : Args) (hy : Hyps a) (n : Fin 100000) (q : Fin 128) :
    val_main_v191 (F := Ideal) a.h a.ei a.et a.ws a.bs a.wr (ix2 n q) = pre a (relMap a) n q := by
  rw [ref_pre, ref_self, rel0 a hy, rel1 a hy, rel2 a hy, rel3 a hy, rel4 a hy, rel5 a hy, rel6 a hy, rel7 a hy]
  rfl

/-- The reference's result array of its arguments. -/
theorem ref_val (a : Args) (hy : Hyps a) :
    val_main_v216 (F := Ideal) a.h a.ei a.et a.ws a.bs a.wr a.gam a.bet = outArr a (relMap a) := by
  funext i
  obtain ⟨n, j, rfl⟩ : ∃ (n : Fin 100000) (j : Fin 128), i = ix2 n j := ⟨i 0, i 1, eq_ix2 i⟩
  rw [outArr_ix2, ref_norm]
  unfold outAt
  have hrow : (fun q : Fin 128 => max (val_main_v191 (F := Ideal) a.h a.ei a.et a.ws a.bs a.wr (ix2 n q)) (0 : EReal))
      = fun q : Fin 128 => max (pre a (relMap a) n q) (0 : EReal) :=
    funext fun q => congrArg (fun v : EReal => max v 0) (ref_pre_apply a hy n q)
  rw [hrow]

/-- On the domain the sum-first and the map-first arrays are one. -/
theorem outArr_relSum_eq (a : Args) (hy : Hyps a) : outArr a (relSum a) = outArr a (relMap a) := by
  have e : relSum a = relMap a := funext fun r => funext fun n => funext fun j => relSum_eq_relMap a hy r n j
  rw [e]

end Cert.GraphConv.Ref

end
-- ==== Proof.lean ====
/-
  The certificate of a relational graph-convolution layer (gather the sources' features, sum them per destination
  node and relation, average, map by the relation, add the self map and bias; rectifier; layer normalisation) fused
  into one tiled kernel, against the plain formulation that maps every edge's features relation by relation before
  summing. Under the stated domain — finite float inputs, every edge's nodes in the node range, every edge's relation
  one of the eight — both programs compute, at every (node, column), the layer's one value: the kernel's array is the
  sum-first arrangement block by block (Proof/KerValue.lean over the generated frame and value leg), the reference's
  the map-first arrangement (Proof/RefValue.lean over the generated run read index by index), and linearity of the
  matrix product over real numbers joins them (Proof/Core.lean). Nothing was rewritten by the idealisation, so its
  ledger is empty.
-/
import proofs.«413660_j81793357185090_2_alg».proof.Defs
import proofs.«413660_j81793357185090_2_alg».proof.Proof.Gen.Kernel
import proofs.«413660_j81793357185090_2_alg».proof.Proof.Gen.Kernel.Skeleton
import proofs.«413660_j81793357185090_2_alg».proof.Proof.Gen.Kernel.Launch
import proofs.«413660_j81793357185090_2_alg».proof.Proof.Gen.Kernel.Points
import proofs.«413660_j81793357185090_2_alg».proof.Proof.Gen.Kernel.Frame
import proofs.«413660_j81793357185090_2_alg».proof.Proof.Gen.KernelIdeal
import proofs.«413660_j81793357185090_2_alg».proof.Proof.Gen.KernelIdeal.Skeleton
import proofs.«413660_j81793357185090_2_alg».proof.Proof.Gen.KernelIdeal.Launch
import proofs.«413660_j81793357185090_2_alg».proof.Proof.Gen.KernelIdeal.Points
import proofs.«413660_j81793357185090_2_alg».proof.Proof.Gen.KernelIdeal.Frame
import proofs.«413660_j81793357185090_2_alg».proof.Proof.Gen.ReferenceIdeal
import proofs.«413660_j81793357185090_2_alg».proof.Proof.Gen.Pre_finite_inputs
import proofs.«413660_j81793357185090_2_alg».proof.Proof.Gen.KernelIdeal.Value
import proofs.«413660_j81793357185090_2_alg».proof.Proof.Gen.ReferenceIdeal.Run
import proofs.«413660_j81793357185090_2_alg».proof.Proof.Gen.ReferenceIdeal.Read
import proofs.«413660_j81793357185090_2_alg».proof.Proof.PreDecode
import proofs.«413660_j81793357185090_2_alg».proof.Proof.KerValue
import proofs.«413660_j81793357185090_2_alg».proof.Proof.RefValue
import Idealize.ShloMosaic.Adequacy
import Idealize.ShloMosaic.Init

noncomputable section

namespace Cert.Proof

open Idealize.ShloMosaic Idealize.SL.Sem Cert.GraphConv

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Where the precondition holds of a memory, the kernel's arguments on every core are in the layer's domain. -/
theorem hyps_ker (m : (ℓ : Loc Cert.KernelIdeal.nD Cert.KernelIdeal.τ Cert.KernelIdeal.sig) → Buf (Elt Ideal) ℓ)
    (hpre : Cert.Pre_KernelIdeal m) (c : Dev Cert.KernelIdeal.nD) : Hyps (Ker.argsK m c) :=
  hyps_of_pre (Ker.argsK m c) (hpre c)

/-- From memories agreeing on the arguments both programs end with the layer's array: the kernel's sum-first
    arrangement and the reference's map-first one, equal on the domain. -/
theorem algebraic : Cert.algebraic_KernelIdeal_ReferenceIdeal := by
  intro m ρ m' ρ' hpre hagree
  refine ⟨fun c => outArr (Ker.argsK m c) (relSum (Ker.argsK m c)), Ker.run m ρ (hyps_ker m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v216_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Ref.ref_val (Ker.argsK m c) (hyps_ker m hpre c)).trans
    (Ref.outArr_relSum_eq (Ker.argsK m c) (hyps_ker m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
